-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x3 : Shape := ⟨2, ![262144, 3]⟩
abbrev S6 : Shape := ⟨1, ![6]⟩
abbrev S36x16x32x1 : Shape := ⟨4, ![36, 16, 32, 1]⟩
abbrev S_ : Shape := ⟨0, ![]⟩

class Facts : Prop where
  bcast_S_S262144x3 : S_.BroadcastsInDim S262144x3 (![] : Fin 0 → Fin S262144x3.rank)
  reducesTo_S262144x3_S_d0_1 : S262144x3.ReducesTo [0, 1] S_
  h_S_ : 0 < S_.numel
  bcast_S_S6 : S_.BroadcastsInDim S6 (![] : Fin 0 → Fin S6.rank)
  reducesTo_S6_S_d0 : S6.ReducesTo [0] S_
  bcast_S_S36x16x32x1 : S_.BroadcastsInDim S36x16x32x1 (![] : Fin 0 → Fin S36x16x32x1.rank)
  reducesTo_S36x16x32x1_S_d0_1_2_3 : S36x16x32x1.ReducesTo [0, 1, 2, 3] S_

variable [Facts]

def fn {F : FTy → Type} [FloatOps F] (main_arg0 : FVec F S262144x3 .f32) (main_arg1 : FVec F S6 .f32) (main_arg2 : FVec F S36x16x32x1 .f32) : IVec S_ 1 :=
  let main_v0 : FVec F S262144x3 .f32 := Host.absf main_arg0
  let main_cst : FVec F S_ .f32 := constant S_ .f32 0x7F800000#32
  let main_v1 : FVec F S262144x3 .f32 := broadcastInDim S262144x3 ![] bcast_S_S262144x3 main_cst
  let main_v2 : IVec S262144x3 1 := cmpf .olt main_v0 main_v1
  let main_c : IVec S_ 1 := constantI S_ 1 1#1
  let main_v3 : IVec S_ 1 := (fun x v => Host.reduce IntOp.andi x v reducesTo_S262144x3_S_d0_1 h_S_) main_v2 main_c
  let main_v4 : FVec F S6 .f32 := Host.absf main_arg1
  let main_cst_0 : FVec F S_ .f32 := constant S_ .f32 0x7F800000#32
  let main_v5 : FVec F S6 .f32 := broadcastInDim S6 ![] bcast_S_S6 main_cst_0
  let main_v6 : IVec S6 1 := cmpf .olt main_v4 main_v5
  let main_c_1 : IVec S_ 1 := constantI S_ 1 1#1
  let main_v7 : IVec S_ 1 := (fun x v => Host.reduce IntOp.andi x v reducesTo_S6_S_d0 h_S_) main_v6 main_c_1
  let main_v8 : IVec S_ 1 := andi main_v3 main_v7
  let main_v9 : FVec F S36x16x32x1 .f32 := Host.absf main_arg2
  let main_cst_2 : FVec F S_ .f32 := constant S_ .f32 0x7F800000#32
  let main_v10 : FVec F S36x16x32x1 .f32 := broadcastInDim S36x16x32x1 ![] bcast_S_S36x16x32x1 main_cst_2
  let main_v11 : IVec S36x16x32x1 1 := cmpf .olt main_v9 main_v10
  let main_c_3 : IVec S_ 1 := constantI S_ 1 1#1
  let main_v12 : IVec S_ 1 := (fun x v => Host.reduce IntOp.andi x v reducesTo_S36x16x32x1_S_d0_1_2_3 h_S_) main_v11 main_c_3
  let main_v13 : IVec S_ 1 := andi main_v8 main_v12
  main_v13
-- ==== Kernel.lean ====
abbrev S262144x3 : Shape := ⟨2, ![262144, 3]⟩
abbrev S6 : Shape := ⟨1, ![6]⟩
abbrev S36x16x32x1 : Shape := ⟨4, ![36, 16, 32, 1]⟩
abbrev S36x16x32 : Shape := ⟨3, ![36, 16, 32]⟩
abbrev S1x6 : Shape := ⟨2, ![1, 6]⟩
abbrev S262144x576 : Shape := ⟨2, ![262144, 576]⟩
abbrev S2048x3 : Shape := ⟨2, ![2048, 3]⟩
abbrev S2048x576 : Shape := ⟨2, ![2048, 576]⟩
abbrev S2048x1x3 : Shape := ⟨3, ![2048, 1, 3]⟩
abbrev S1x6x1 : Shape := ⟨3, ![1, 6, 1]⟩
abbrev S2048x6x3 : Shape := ⟨3, ![2048, 6, 3]⟩
abbrev S2048x6x1x3 : Shape := ⟨4, ![2048, 6, 1, 3]⟩
abbrev S2048x6x2x3 : Shape := ⟨4, ![2048, 6, 2, 3]⟩
abbrev S2048x36 : Shape := ⟨2, ![2048, 36]⟩
abbrev S2048x36x16 : Shape := ⟨3, ![2048, 36, 16]⟩
abbrev S36x16x1 : Shape := ⟨3, ![36, 16, 1]⟩
abbrev S36x16 : Shape := ⟨2, ![36, 16]⟩
abbrev S2048x36x1 : Shape := ⟨3, ![2048, 36, 1]⟩
abbrev S1x36x16 : Shape := ⟨3, ![1, 36, 16]⟩
abbrev S2048x16x36 : Shape := ⟨3, ![2048, 16, 36]⟩

abbrev nBuf : Space → Nat
  | .hbm => 6
  | .vmem => 6
  | .smem => 0
  | _ => 0

abbrev bufTy : (tb : Table) → Fin (tcTables nBuf tb) → BufTy
  | .hbm, ⟨0, _⟩ => ⟨S262144x3, .f32⟩
  | .hbm, ⟨1, _⟩ => ⟨S6, .f32⟩
  | .hbm, ⟨2, _⟩ => ⟨S36x16x32x1, .f32⟩
  | .hbm, ⟨3, _⟩ => ⟨S36x16x32, .f32⟩
  | .hbm, ⟨4, _⟩ => ⟨S1x6, .f32⟩
  | .hbm, ⟨5, _⟩ => ⟨S262144x576, .f32⟩
  | .local _ .vmem, ⟨0, _⟩ => ⟨S2048x3, .f32⟩
  | .local _ .vmem, ⟨1, _⟩ => ⟨S2048x3, .f32⟩
  | .local _ .vmem, ⟨2, _⟩ => ⟨S1x6, .f32⟩
  | .local _ .vmem, ⟨3, _⟩ => ⟨S36x16x32, .f32⟩
  | .local _ .vmem, ⟨4, _⟩ => ⟨S2048x576, .f32⟩
  | .local _ .vmem, ⟨5, _⟩ => ⟨S2048x576, .f32⟩
  | _, _ => ⟨S262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S36x16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S36x16x32x1_S36x16x32 : S36x16x32x1.ShapeCasts S36x16x32
  shapeCasts_S6_S1x6 : S6.ShapeCasts S1x6
  inb_S2048x3_S2048x3_0_0 : ∀ a, (![0, 0] : Fin 2 → Nat) a + S2048x3.size a ≤ S2048x3.size a
  h_S2048x3 : 0 < S2048x3.numel
  inb_S1x6_S1x6_0_0 : ∀ a, (![0, 0] : Fin 2 → Nat) a + S1x6.size a ≤ S1x6.size a
  h_S1x6 : 0 < S1x6.numel
  shapeCasts_S1x6_S6 : S1x6.ShapeCasts S6
  shapeCasts_S2048x3_S2048x1x3 : S2048x3.ShapeCasts S2048x1x3
  shapeCasts_S6_S1x6x1 : S6.ShapeCasts S1x6x1
  broadcasts_S2048x1x3_S2048x6x3 : S2048x1x3.Broadcasts S2048x6x3
  broadcasts_S1x6x1_S2048x6x3 : S1x6x1.Broadcasts S2048x6x3
  shapeCasts_S2048x6x3_S2048x6x1x3 : S2048x6x3.ShapeCasts S2048x6x1x3
  concatenates_S2048x6x1x3_S2048x6x1x3_S2048x6x2x3_d2 : Shape.Concatenates [S2048x6x1x3, S2048x6x1x3] S2048x6x2x3 2
  shapeCasts_S2048x6x2x3_S2048x36 : S2048x6x2x3.ShapeCasts S2048x36
  inb_S36x16x32_S36x16x32_0_0_0 : ∀ a, (![0, 0, 0] : Fin 3 → Nat) a + S36x16x32.size a ≤ S36x16x32.size a
  h_S36x16x32 : 0 < S36x16x32.numel
  shapeCasts_S36x16x32_S36x16x32 : S36x16x32.ShapeCasts S36x16x32
  slices_S36x16x32_o0_0_0_S36x16x1 : S36x16x32.Slices ![0, 0, 0] S36x16x1
  shapeCasts_S36x16x1_S36x16 : S36x16x1.ShapeCasts S36x16
  shapeCasts_S2048x36_S2048x36x1 : S2048x36.ShapeCasts S2048x36x1
  shapeCasts_S36x16_S1x36x16 : S36x16.ShapeCasts S1x36x16
  broadcasts_S2048x36x1_S2048x36x16 : S2048x36x1.Broadcasts S2048x36x16
  broadcasts_S1x36x16_S2048x36x16 : S1x36x16.Broadcasts S2048x36x16
  slices_S36x16x32_o0_0_1_S36x16x1 : S36x16x32.Slices ![0, 0, 1] S36x16x1
  slices_S36x16x32_o0_0_2_S36x16x1 : S36x16x32.Slices ![0, 0, 2] S36x16x1
  slices_S36x16x32_o0_0_3_S36x16x1 : S36x16x32.Slices ![0, 0, 3] S36x16x1
  slices_S36x16x32_o0_0_4_S36x16x1 : S36x16x32.Slices ![0, 0, 4] S36x16x1
  slices_S36x16x32_o0_0_5_S36x16x1 : S36x16x32.Slices ![0, 0, 5] S36x16x1
  slices_S36x16x32_o0_0_6_S36x16x1 : S36x16x32.Slices ![0, 0, 6] S36x16x1
  slices_S36x16x32_o0_0_7_S36x16x1 : S36x16x32.Slices ![0, 0, 7] S36x16x1
  slices_S36x16x32_o0_0_8_S36x16x1 : S36x16x32.Slices ![0, 0, 8] S36x16x1
  slices_S36x16x32_o0_0_9_S36x16x1 : S36x16x32.Slices ![0, 0, 9] S36x16x1
  slices_S36x16x32_o0_0_10_S36x16x1 : S36x16x32.Slices ![0, 0, 10] S36x16x1
  slices_S36x16x32_o0_0_11_S36x16x1 : S36x16x32.Slices ![0, 0, 11] S36x16x1
  slices_S36x16x32_o0_0_12_S36x16x1 : S36x16x32.Slices ![0, 0, 12] S36x16x1
  slices_S36x16x32_o0_0_13_S36x16x1 : S36x16x32.Slices ![0, 0, 13] S36x16x1
  slices_S36x16x32_o0_0_14_S36x16x1 : S36x16x32.Slices ![0, 0, 14] S36x16x1
  slices_S36x16x32_o0_0_15_S36x16x1 : S36x16x32.Slices ![0, 0, 15] S36x16x1
  slices_S36x16x32_o0_0_16_S36x16x1 : S36x16x32.Slices ![0, 0, 16] S36x16x1
  slices_S36x16x32_o0_0_17_S36x16x1 : S36x16x32.Slices ![0, 0, 17] S36x16x1
  slices_S36x16x32_o0_0_18_S36x16x1 : S36x16x32.Slices ![0, 0, 18] S36x16x1
  slices_S36x16x32_o0_0_19_S36x16x1 : S36x16x32.Slices ![0, 0, 19] S36x16x1
  slices_S36x16x32_o0_0_20_S36x16x1 : S36x16x32.Slices ![0, 0, 20] S36x16x1
  slices_S36x16x32_o0_0_21_S36x16x1 : S36x16x32.Slices ![0, 0, 21] S36x16x1
  slices_S36x16x32_o0_0_22_S36x16x1 : S36x16x32.Slices ![0, 0, 22] S36x16x1
  slices_S36x16x32_o0_0_23_S36x16x1 : S36x16x32.Slices ![0, 0, 23] S36x16x1
  slices_S36x16x32_o0_0_24_S36x16x1 : S36x16x32.Slices ![0, 0, 24] S36x16x1
  slices_S36x16x32_o0_0_25_S36x16x1 : S36x16x32.Slices ![0, 0, 25] S36x16x1
  slices_S36x16x32_o0_0_26_S36x16x1 : S36x16x32.Slices ![0, 0, 26] S36x16x1
  slices_S36x16x32_o0_0_27_S36x16x1 : S36x16x32.Slices ![0, 0, 27] S36x16x1
  slices_S36x16x32_o0_0_28_S36x16x1 : S36x16x32.Slices ![0, 0, 28] S36x16x1
  slices_S36x16x32_o0_0_29_S36x16x1 : S36x16x32.Slices ![0, 0, 29] S36x16x1
  slices_S36x16x32_o0_0_30_S36x16x1 : S36x16x32.Slices ![0, 0, 30] S36x16x1
  slices_S36x16x32_o0_0_31_S36x16x1 : S36x16x32.Slices ![0, 0, 31] S36x16x1
  transposes_S2048x36x16_p0_2_1_S2048x16x36 : S2048x36x16.Transposes [0, 2, 1] S2048x16x36
  shapeCasts_S2048x16x36_S2048x576 : S2048x16x36.ShapeCasts S2048x576
  inb_S2048x576_S2048x576_0_0 : ∀ a, (![0, 0] : Fin 2 → Nat) a + S2048x576.size a ≤ S2048x576.size a
  h_S2048x576 : 0 < S2048x576.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3.size a ≤ S262144x3.size a
  hwx0_0 : ∀ i : grid0.Coords, EltTy.bits .f32 = 32 ∨ (Rect.block (s := S262144x3) S2048x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x6.size a ≤ S1x6.size a
  hwx0_1 : ∀ i : grid0.Coords, EltTy.bits .f32 = 32 ∨ (Rect.block (s := S1x6) S1x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S36x16x32.size a ≤ S36x16x32.size a
  hwx0_2 : ∀ i : grid0.Coords, EltTy.bits .f32 = 32 ∨ (Rect.block (s := S36x16x32) S36x16x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x576.size a ≤ S262144x576.size a
  hwx0_3 : ∀ i : grid0.Coords, EltTy.bits .f32 = 32 ∨ (Rect.block (s := S262144x576) S2048x576.size (cc0_transform_3 i) (hinb0_3 i)).WholeWords (EltTy.packing .f32)

variable [Facts₀]

abbrev win0_0 : Pipeline.Window sig grid0 :=
  Pipeline.Window.ofSpec (Memref.whole main_arg0) S2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x6.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S36x16x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x576.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x3 : Shape := ⟨2, ![262144, 3]⟩
abbrev S6 : Shape := ⟨1, ![6]⟩
abbrev S36x16x32x1 : Shape := ⟨4, ![36, 16, 32, 1]⟩
abbrev S262144x1x3 : Shape := ⟨3, ![262144, 1, 3]⟩
abbrev S1x6x1 : Shape := ⟨3, ![1, 6, 1]⟩
abbrev S262144x6x3 : Shape := ⟨3, ![262144, 6, 3]⟩
abbrev S262144x6x1x3 : Shape := ⟨4, ![262144, 6, 1, 3]⟩
abbrev S262144x6x2x3 : Shape := ⟨4, ![262144, 6, 2, 3]⟩
abbrev S262144x36 : Shape := ⟨2, ![262144, 36]⟩
abbrev S36x262144 : Shape := ⟨2, ![36, 262144]⟩
abbrev S36x16x32 : Shape := ⟨3, ![36, 16, 32]⟩
abbrev S36x32x16 : Shape := ⟨3, ![36, 32, 16]⟩
abbrev S_ : Shape := ⟨0, ![]⟩
abbrev S36x262144x1 : Shape := ⟨3, ![36, 262144, 1]⟩
abbrev S36x262144x16 : Shape := ⟨3, ![36, 262144, 16]⟩
abbrev S36x16x262144 : Shape := ⟨3, ![36, 16, 262144]⟩
abbrev S6x3x2x16x262144 : Shape := ⟨5, ![6, 3, 2, 16, 262144]⟩
abbrev S6x3x2x1x262144 : Shape := ⟨5, ![6, 3, 2, 1, 262144]⟩
abbrev S262144x16x6x3x2 : Shape := ⟨5, ![262144, 16, 6, 3, 2]⟩
abbrev S262144x576 : Shape := ⟨2, ![262144, 576]⟩

abbrev nBuf : Space → Nat
  | .hbm => 83
  | .vmem => 0
  | .smem => 0
  | _ => 0

abbrev bufTy : (tb : Table) → Fin (tcTables nBuf tb) → BufTy
  | .hbm, ⟨0, _⟩ => ⟨S262144x3, .f32⟩
  | .hbm, ⟨1, _⟩ => ⟨S6, .f32⟩
  | .hbm, ⟨2, _⟩ => ⟨S36x16x32x1, .f32⟩
  | .hbm, ⟨3, _⟩ => ⟨S262144x1x3, .f32⟩
  | .hbm, ⟨4, _⟩ => ⟨S1x6x1, .f32⟩
  | .hbm, ⟨5, _⟩ => ⟨S262144x6x3, .f32⟩
  | .hbm, ⟨6, _⟩ => ⟨S262144x6x3, .f32⟩
  | .hbm, ⟨7, _⟩ => ⟨S262144x6x3, .f32⟩
  | .hbm, ⟨8, _⟩ => ⟨S262144x6x3, .f32⟩
  | .hbm, ⟨9, _⟩ => ⟨S262144x6x3, .f32⟩
  | .hbm, ⟨10, _⟩ => ⟨S262144x6x1x3, .f32⟩
  | .hbm, ⟨11, _⟩ => ⟨S262144x6x1x3, .f32⟩
  | .hbm, ⟨12, _⟩ => ⟨S262144x6x2x3, .f32⟩
  | .hbm, ⟨13, _⟩ => ⟨S262144x36, .f32⟩
  | .hbm, ⟨14, _⟩ => ⟨S36x262144, .f32⟩
  | .hbm, ⟨15, _⟩ => ⟨S36x16x32, .f32⟩
  | .hbm, ⟨16, _⟩ => ⟨S36x32x16, .f32⟩
  | .hbm, ⟨17, _⟩ => ⟨S_, .f32⟩
  | .hbm, ⟨18, _⟩ => ⟨S36x262144, .f32⟩
  | .hbm, ⟨19, _⟩ => ⟨S36x262144, .f32⟩
  | .hbm, ⟨20, _⟩ => ⟨S_, .f32⟩
  | .hbm, ⟨21, _⟩ => ⟨S36x262144, .f32⟩
  | .hbm, ⟨22, _⟩ => ⟨S36x262144, .f32⟩
  | .hbm, ⟨23, _⟩ => ⟨S_, .f32⟩
  | .hbm, ⟨24, _⟩ => ⟨S36x262144, .f32⟩
  | .hbm, ⟨25, _⟩ => ⟨S36x262144, .f32⟩
  | .hbm, ⟨26, _⟩ => ⟨S36x262144, .f32⟩
  | .hbm, ⟨27, _⟩ => ⟨S36x262144, .f32⟩
  | .hbm, ⟨28, _⟩ => ⟨S36x262144, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S36x262144, .i32⟩
  | .hbm, ⟨33, _⟩ => ⟨S36x262144, .i32⟩
  | .hbm, ⟨34, _⟩ => ⟨S_, .i32⟩
  | .hbm, ⟨35, _⟩ => ⟨S36x262144, .i32⟩
  | .hbm, ⟨36, _⟩ => ⟨S36x262144, .i32⟩
  | .hbm, ⟨37, _⟩ => ⟨S_, .i32⟩
  | .hbm, ⟨38, _⟩ => ⟨S36x262144, .i32⟩
  | .hbm, ⟨39, _⟩ => ⟨S36x262144, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S36x262144, .i32⟩
  | .hbm, ⟨44, _⟩ => ⟨S36x262144, .i32⟩
  | .hbm, ⟨45, _⟩ => ⟨S_, .i32⟩
  | .hbm, ⟨46, _⟩ => ⟨S36x262144, .i32⟩
  | .hbm, ⟨47, _⟩ => ⟨S36x262144, .i32⟩
  | .hbm, ⟨48, _⟩ => ⟨S_, .i32⟩
  | .hbm, ⟨49, _⟩ => ⟨S36x262144, .i32⟩
  | .hbm, ⟨50, _⟩ => ⟨S36x262144, .i1⟩
  | .hbm, ⟨51, _⟩ => ⟨S_, .i32⟩
  | .hbm, ⟨52, _⟩ => ⟨S36x262144, .i32⟩
  | .hbm, ⟨53, _⟩ => ⟨S36x262144, .i32⟩
  | .hbm, ⟨54, _⟩ => ⟨S36x262144, .i32⟩
  | .hbm, ⟨55, _⟩ => ⟨S36x262144x1, .i32⟩
  | .hbm, ⟨56, _⟩ => ⟨S36x262144x16, .f32⟩
  | .hbm, ⟨57, _⟩ => ⟨S_, .i32⟩
  | .hbm, ⟨58, _⟩ => ⟨S36x262144, .i32⟩
  | .hbm, ⟨59, _⟩ => ⟨S36x262144, .i1⟩
  | .hbm, ⟨60, _⟩ => ⟨S_, .i32⟩
  | .hbm, ⟨61, _⟩ => ⟨S36x262144, .i32⟩
  | .hbm, ⟨62, _⟩ => ⟨S36x262144, .i32⟩
  | .hbm, ⟨63, _⟩ => ⟨S36x262144, .i32⟩
  | .hbm, ⟨64, _⟩ => ⟨S36x262144x1, .i32⟩
  | .hbm, ⟨65, _⟩ => ⟨S36x262144x16, .f32⟩
  | .hbm, ⟨66, _⟩ => ⟨S_, .f32⟩
  | .hbm, ⟨67, _⟩ => ⟨S36x262144, .f32⟩
  | .hbm, ⟨68, _⟩ => ⟨S36x262144, .f32⟩
  | .hbm, ⟨69, _⟩ => ⟨S36x262144x1, .f32⟩
  | .hbm, ⟨70, _⟩ => ⟨S36x262144x16, .f32⟩
  | .hbm, ⟨71, _⟩ => ⟨S36x262144x16, .f32⟩
  | .hbm, ⟨72, _⟩ => ⟨S36x262144x1, .f32⟩
  | .hbm, ⟨73, _⟩ => ⟨S36x262144x16, .f32⟩
  | .hbm, ⟨74, _⟩ => ⟨S36x262144x16, .f32⟩
  | .hbm, ⟨75, _⟩ => ⟨S36x262144x16, .f32⟩
  | .hbm, ⟨76, _⟩ => ⟨S36x16x262144, .f32⟩
  | .hbm, ⟨77, _⟩ => ⟨S6x3x2x16x262144, .f32⟩
  | .hbm, ⟨78, _⟩ => ⟨S6x3x2x1x262144, .f32⟩
  | .hbm, ⟨79, _⟩ => ⟨S6x3x2x16x262144, .f32⟩
  | .hbm, ⟨80, _⟩ => ⟨S6x3x2x16x262144, .f32⟩
  | .hbm, ⟨81, _⟩ => ⟨S262144x16x6x3x2, .f32⟩
  | .hbm, ⟨82, _⟩ => ⟨S262144x576, .f32⟩
  | _, _ => ⟨S262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_c_2 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_c_5 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_8 : Ref sig .tc := ⟨.hbm, 57, rfl⟩
abbrev main_v34 : Ref sig .tc := ⟨.hbm, 58, rfl⟩
abbrev main_v35 : Ref sig .tc := ⟨.hbm, 59, rfl⟩
abbrev main_c_9 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_10 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩

abbrev nD : Nat := 1
abbrev τ : Topo := Topo.v7x

variable {F : FTy → Type} [FloatOps F]

class Facts₀ : Prop where
  bcast_S262144x3_S262144x1x3_0_2 : S262144x3.BroadcastsInDim S262144x1x3 (![0, 2] : Fin 2 → Fin S262144x1x3.rank)
  bcast_S6_S1x6x1_1 : S6.BroadcastsInDim S1x6x1 (![1] : Fin 1 → Fin S1x6x1.rank)
  bcast_S262144x1x3_S262144x6x3_0_1_2 : S262144x1x3.BroadcastsInDim S262144x6x3 (![0, 1, 2] : Fin 3 → Fin S262144x6x3.rank)
  bcast_S1x6x1_S262144x6x3_0_1_2 : S1x6x1.BroadcastsInDim S262144x6x3 (![0, 1, 2] : Fin 3 → Fin S262144x6x3.rank)
  bcast_S262144x6x3_S262144x6x1x3_0_1_3 : S262144x6x3.BroadcastsInDim S262144x6x1x3 (![0, 1, 3] : Fin 3 → Fin S262144x6x1x3.rank)
  concatenates_S262144x6x1x3_S262144x6x1x3_S262144x6x2x3_d2 : Shape.Concatenates [S262144x6x1x3, S262144x6x1x3] S262144x6x2x3 2
  shapeCasts_S262144x6x2x3_S262144x36 : S262144x6x2x3.ShapeCasts S262144x36
  transposes_S262144x36_S36x262144_1_0 : S262144x36.Transposes [1, 0] S36x262144
  shapeCasts_S36x16x32x1_S36x16x32 : S36x16x32x1.ShapeCasts S36x16x32
  transposes_S36x16x32_S36x32x16_0_2_1 : S36x16x32.Transposes [0, 2, 1] S36x32x16
  bcast_S_S36x262144 : S_.BroadcastsInDim S36x262144 (![] : Fin 0 → Fin S36x262144.rank)
  bcast_S36x262144_S36x262144x1_0_1 : S36x262144.BroadcastsInDim S36x262144x1 (![0, 1] : Fin 2 → Fin S36x262144x1.rank)
  bcast_S36x262144x1_S36x262144x16_0_1_2 : S36x262144x1.BroadcastsInDim S36x262144x16 (![0, 1, 2] : Fin 3 → Fin S36x262144x16.rank)
  transposes_S36x262144x16_S36x16x262144_0_2_1 : S36x262144x16.Transposes [0, 2, 1] S36x16x262144
  shapeCasts_S36x16x262144_S6x3x2x16x262144 : S36x16x262144.ShapeCasts S6x3x2x16x262144
  shapeCasts_S36x262144_S6x3x2x1x262144 : S36x262144.ShapeCasts S6x3x2x1x262144
  bcast_S6x3x2x1x262144_S6x3x2x16x262144_0_1_2_3_4 : S6x3x2x1x262144.BroadcastsInDim S6x3x2x16x262144 (![0, 1, 2, 3, 4] : Fin 5 → Fin S6x3x2x16x262144.rank)
  transposes_S6x3x2x16x262144_S262144x16x6x3x2_4_3_0_1_2 : S6x3x2x16x262144.Transposes [4, 3, 0, 1, 2] S262144x16x6x3x2
  shapeCasts_S262144x16x6x3x2_S262144x576 : S262144x16x6x3x2.ShapeCasts S262144x576
  gather_S36x32x16_S36x262144x1_S36x262144x16_2_1_0_0_1_2_1116_wf : GatherDims.WF S36x32x16 S36x262144x1 S36x262144x16 [2] [1] [0] [1] [0] 2 ![1, 1, 16]

variable [Facts₀]

def gather_S36x32x16_S36x262144x1_S36x262144x16_2_1_0_0_1_2_1116 : GatherDims S36x32x16 S36x262144x1 S36x262144x16 where
  offsetDims := [2]
  collapsedSliceDims := [1]
  operandBatchingDims := [0]
  startIndicesBatchingDims := [0]
  startIndexMap := [1]
  indexVectorDim := 2
  sliceSizes := ![1, 1, 16]
  wf := gather_S36x32x16_S36x262144x1_S36x262144x16_2_1_0_0_1_2_1116_wf

class Facts : Prop extends Facts₀ where

variable [Facts]
-- ==== Proof.Spec.lean ====
/-
  The mathematics both programs compute, one output element at a time.

  A point's coordinate `p` and a frequency `f` give the encoded value `e = sin (p·f)` or `cos (p·f)`.
  The value is mapped to the sample position `pos e = ((e + 1) · ½) · 31` on a table axis of 32 rows; its
  floor gives the lower row `lo e` (converted to a 32-bit integer and clamped to [0, 31]), the upper row is
  `hi e = clamp (lo e + 1)`, and the weight of the upper row is the fractional part `wgt e`.  The output is
  the table's two rows mixed linearly, plus the encoded value itself.

  The kernel has no gather: it walks the 32 rows and adds row `r` with the weight
  `[lo = r]·(1 − w) + [hi = r]·w` (`accW`); the reference gathers the two rows (`lerp`).
-/
import Idealize.ShloMosaic.PureOps.Ideal
import Idealize.ShloMosaic.PureOps.Ideal.Laws
import Idealize.ShloMosaic.Lib.ValueIdx

noncomputable section

namespace Cert.Interp

open Idealize.ShloMosaic Idealize.ShloMosaic.ValueIdx

/-- The literals of both programs, as the extended reals their patterns denote. -/
abbrev one : EReal := Ideal.ofBits .f32 0x3F800000#32
abbrev half : EReal := Ideal.ofBits .f32 0x3F000000#32
abbrev c31 : EReal := Ideal.ofBits .f32 0x41F80000#32
abbrev zero : EReal := Ideal.ofBits .f32 0x00000000#32

/-- The encoded value: the sine (`s = 0`) or the cosine (otherwise) of coordinate times frequency. -/
def encS (p f : EReal) (s : Nat) : EReal := if s = 0 then Ideal.sin (p * f) else Ideal.cos (p * f)

/-- The sample position on the 32-row axis. -/
def pos (e : EReal) : EReal := ((e + one) * half) * c31
/-- Its floor. -/
def flo (e : EReal) : EReal := Ideal.liftRound Int.floor (pos e)
/-- The fractional part: the weight of the upper row. -/
def wgt (e : EReal) : EReal := pos e - flo e
/-- The lower row, clamped to [0, 31]. -/
def lo (e : EReal) : BitVec 32 := IntOp.minsi 31#32 (IntOp.maxsi 0#32 (Ideal.fptosi 32 (flo e)))
/-- The upper row, clamped to [0, 31]. -/
def hi (e : EReal) : BitVec 32 := IntOp.minsi 31#32 (IntOp.maxsi 0#32 (IntOp.addi (lo e) 1#32))

/-- The weight the kernel gives row `r`. -/
def rowW (w : EReal) (i0 i1 : BitVec 32) (r : Nat) : EReal :=
  Scalar.select (IntOp.cmpi .eq i0 (BitVec.ofNat 32 r)) (one - w) zero
    + Scalar.select (IntOp.cmpi .eq i1 (BitVec.ofNat 32 r)) w zero

/-- The kernel's running sum over the first `k` rows of a table column `T`. -/
def accW (T : Nat → EReal) (w : EReal) (i0 i1 : BitVec 32) : Nat → EReal
  | 0 => zero
  | k + 1 => accW T w i0 i1 k + rowW w i0 i1 k * T k

/-- The reference's mix of the two gathered rows. -/
def lerp (T : Nat → EReal) (e : EReal) : EReal := T (lo e).toNat * (one - wgt e) + T (hi e).toNat * wgt e

/-- Column `(g, c)` of the feature table, as a function of the row number (zero past the table). -/
def col (x2 : (⟨4, ![36, 16, 32, 1]⟩ : Shape).Idx → EReal) (g : Fin 36) (c : Fin 16) : Nat → EReal :=
  fun r => if h : r < 32 then x2 (ix4 g c ⟨r, h⟩ 0) else 0

/-- The encoded value of channel `g = 6·f + 3·s + d` of point `n`: frequency `f`, sine or cosine `s`, coordinate `d`. -/
def enc (x0 : (⟨2, ![262144, 3]⟩ : Shape).Idx → EReal) (x1 : (⟨1, ![6]⟩ : Shape).Idx → EReal) (n : Fin 262144) (g : Fin 36) : EReal :=
  encS (x0 (ix2 n ⟨g.val % 3, Nat.mod_lt _ (by decide)⟩)) (x1 (ix1 ⟨g.val / 6, by have := g.isLt; omega⟩)) (g.val / 3 % 2)

/-- THE KERNEL'S RESULT, element `(n, 36·c + g)`: the running sum over all 32 rows of column `(g, c)`, plus the encoded value. -/
def Gk (x0 : (⟨2, ![262144, 3]⟩ : Shape).Idx → EReal) (x1 : (⟨1, ![6]⟩ : Shape).Idx → EReal)
    (x2 : (⟨4, ![36, 16, 32, 1]⟩ : Shape).Idx → EReal) : (⟨2, ![262144, 576]⟩ : Shape).Idx → EReal :=
  fun i =>
    let g : Fin 36 := ⟨(i 1).val % 36, Nat.mod_lt _ (by decide)⟩
    let c : Fin 16 := ⟨(i 1).val / 36, by have h : (i 1).val < 576 := idx2_lt1 i; show (i 1).val / 36 < 16; omega⟩
    let e := enc x0 x1 (i 0) g
    accW (col x2 g c) (wgt e) (lo e) (hi e) 32 + e

/-- THE REFERENCE'S RESULT, element `(n, 36·c + g)`: the two gathered rows mixed, plus the encoded value. -/
def Gr (x0 : (⟨2, ![262144, 3]⟩ : Shape).Idx → EReal) (x1 : (⟨1, ![6]⟩ : Shape).Idx → EReal)
    (x2 : (⟨4, ![36, 16, 32, 1]⟩ : Shape).Idx → EReal) : (⟨2, ![262144, 576]⟩ : Shape).Idx → EReal :=
  fun i =>
    let g : Fin 36 := ⟨(i 1).val % 36, Nat.mod_lt _ (by decide)⟩
    let c : Fin 16 := ⟨(i 1).val / 36, by have h : (i 1).val < 576 := idx2_lt1 i; show (i 1).val / 36 < 16; omega⟩
    let e := enc x0 x1 (i 0) g
    lerp (col x2 g c) e + e

end Cert.Interp

end
-- ==== Proof.Interp.lean ====
import proofs.«109660_j28028956573735_1_alg».proof.Proof.Spec

noncomputable section

namespace Cert.Interp

open Idealize.ShloMosaic Idealize.ShloMosaic.ValueIdx

/-- A signed clamp to [0, 31] of any 32-bit word lies in [0, 31]. -/
private theorem clamp_range (x : BitVec 32) : (IntOp.minsi 31#32 (IntOp.maxsi 0#32 x)).toNat < 32 := by
  unfold IntOp.minsi IntOp.maxsi
  split <;> split <;> simp_all [BitVec.slt, BitVec.toInt] <;> omega

/-- A word below 32 reads the same signed and unsigned. -/
private theorem toInt_of_small (v : BitVec 32) (h : v.toNat < 32) : v.toInt = (v.toNat : Int) := by
  simp [BitVec.toInt]; omega

/-- A word below 32 is not negative as a signed number. -/
private theorem not_neg_of_small (v : BitVec 32) (h : v.toNat < 32) : IntOp.cmpi .slt v 0#32 = 0#1 := by
  unfold IntOp.cmpi
  have hn : ¬ ((v.toNat : Int) < 0) := by omega
  simp [BitVec.slt, toInt_of_small v h, hn]

/-- Selecting on the equality test of a word against the row number `r < 32` is a case split on the word's value. -/
private theorem select_eq_row {α : Type} (i : BitVec 32) (r : Nat) (hr : r < 32) (a b : α) :
    Scalar.select (IntOp.cmpi .eq i (BitVec.ofNat 32 r)) a b = if i.toNat = r then a else b := by
  have key : (i = BitVec.ofNat 32 r) ↔ i.toNat = r := by
    rw [← BitVec.toNat_inj, BitVec.toNat_ofNat]
    have hm : r % 2 ^ 32 = r := Nat.mod_eq_of_lt (by omega)
    rw [hm]
  show (if BitVec.ofBool (i == BitVec.ofNat 32 r) = 1#1 then a else b) = _
  by_cases h : i.toNat = r
  · have hb : (i == BitVec.ofNat 32 r) = true := by rw [beq_iff_eq]; exact key.mpr h
    rw [hb, if_pos h]; simp
  · have hb : (i == BitVec.ofNat 32 r) = false := by
      rw [beq_eq_false_iff_ne]; exact fun hh => h (key.mp hh)
    rw [hb, if_neg h]; simp

/-- A binary32 pattern whose exponent field is not all ones denotes a real number. -/
private theorem f32_real (b : BitVec 32) (hb : (b.extractLsb' 23 8).toNat ≠ 255) : ∃ r : ℝ, Ideal.ofBits .f32 b = (r : EReal) := by
  unfold Ideal.ofBits Ideal.ieee
  simp only []
  split_ifs <;> first | exact ⟨_, rfl⟩ | (exfalso; exact hb (by assumption))

private theorem one_real : ∃ r : ℝ, one = (r : EReal) := f32_real _ (by decide)
private theorem half_real : ∃ r : ℝ, half = (r : EReal) := f32_real _ (by decide)
private theorem c31_real : ∃ r : ℝ, c31 = (r : EReal) := f32_real _ (by decide)
private theorem zero_eq : zero = 0 := Ideal.ofBits_zero_f32

/-- The running sum over real numbers: row `r` weighs `[n0 = r]·a + [n1 = r]·b`. -/
private def accR (t : Nat → ℝ) (a b : ℝ) (n0 n1 : Nat) : Nat → ℝ
  | 0 => 0
  | k + 1 => accR t a b n0 n1 k + ((if n0 = k then a else 0) + (if n1 = k then b else 0)) * t k

/-- After `k` rows the real running sum holds exactly the rows `n0` and `n1` already passed. -/
private theorem accR_closed (t : Nat → ℝ) (a b : ℝ) (n0 n1 : Nat) :
    ∀ k, accR t a b n0 n1 k = (if n0 < k then t n0 * a else 0) + (if n1 < k then t n1 * b else 0)
  | 0 => by simp [accR]
  | k + 1 => by
    rw [accR, accR_closed t a b n0 n1 k]
    split_ifs <;> first | (exfalso; omega) | (subst_vars; ring)

/-- Over a real column, a real weight, the extended-real running sum is the real one. -/
private theorem accW_eq_coe (T : Nat → EReal) (t : Nat → ℝ) (w' o : ℝ) (i0 i1 : BitVec 32)
    (hT : ∀ r, r < 32 → T r = (t r : EReal)) (ho : one = (o : EReal)) :
    ∀ k, k ≤ 32 → accW T (w' : EReal) i0 i1 k = ((accR t (o - w') w' i0.toNat i1.toNat k : ℝ) : EReal)
  | 0, _ => by
    show zero = ((0 : ℝ) : EReal)
    rw [zero_eq, EReal.coe_zero]
  | k + 1, hk => by
    show accW T (w' : EReal) i0 i1 k + rowW (w' : EReal) i0 i1 k * T k = _
    rw [accW_eq_coe T t w' o i0 i1 hT ho k (by omega), rowW, select_eq_row _ _ (by omega), select_eq_row _ _ (by omega),
      hT k (by omega), ho, zero_eq, accR]
    split_ifs <;> norm_cast

/-- The weight of a real encoded value is real: sums, products and the floor of reals are real. -/
private theorem wgt_real (x : ℝ) : ∃ w' : ℝ, wgt (x : EReal) = (w' : EReal) := by
  obtain ⟨o, ho⟩ := one_real
  obtain ⟨h, hh⟩ := half_real
  obtain ⟨c, hc⟩ := c31_real
  unfold wgt flo pos
  rw [ho, hh, hc, ← EReal.coe_add, ← EReal.coe_mul, ← EReal.coe_mul, Ideal.liftRound_coe, ← EReal.coe_sub]
  exact ⟨_, rfl⟩

/-- Over any two row words below 32: after all 32 rows the running sum is the two rows' mix
    (both rows have been passed, and real multiplication commutes). -/
private theorem accW_two_rows (T : Nat → EReal) (t : Nat → ℝ) (w' o : ℝ) (i0 i1 : BitVec 32)
    (hT : ∀ r, r < 32 → T r = (t r : EReal)) (ho : one = (o : EReal)) (h0 : i0.toNat < 32) (h1 : i1.toNat < 32) :
    accW T (w' : EReal) i0 i1 32 = T i0.toNat * (one - (w' : EReal)) + T i1.toNat * (w' : EReal) := by
  rw [accW_eq_coe T t w' o i0 i1 hT ho 32 le_rfl, accR_closed, if_pos h0, if_pos h1, ho, hT _ h0, hT _ h1]
  norm_cast

/-- The clamped lower row is a row of the table. -/
theorem lo_toNat_lt (e : EReal) : (lo e).toNat < 32 := by
  unfold lo; exact clamp_range _
/-- The clamped upper row is a row of the table. -/
theorem hi_toNat_lt (e : EReal) : (hi e).toNat < 32 := by
  unfold hi; exact clamp_range _
/-- Read as a signed integer the clamped lower row is the same number. -/
theorem lo_toInt (e : EReal) : (lo e).toInt = ((lo e).toNat : Int) := toInt_of_small _ (lo_toNat_lt e)
theorem hi_toInt (e : EReal) : (hi e).toInt = ((hi e).toNat : Int) := toInt_of_small _ (hi_toNat_lt e)
/-- Neither row index is negative as a signed word. -/
theorem lo_not_neg (e : EReal) : IntOp.cmpi .slt (lo e) 0#32 = 0#1 := not_neg_of_small _ (lo_toNat_lt e)
theorem hi_not_neg (e : EReal) : IntOp.cmpi .slt (hi e) 0#32 = 0#1 := not_neg_of_small _ (hi_toNat_lt e)

/-- The encoded value of real arguments is real. -/
theorem encS_real (p f : EReal) (s : Nat) (hp : ∃ x : ℝ, p = (x : EReal)) (hf : ∃ x : ℝ, f = (x : EReal)) :
    ∃ x : ℝ, encS p f s = (x : EReal) := by
  obtain ⟨a, rfl⟩ := hp
  obtain ⟨b, rfl⟩ := hf
  unfold encS
  rw [← EReal.coe_mul]
  split_ifs
  · exact ⟨_, Ideal.sin_coe _⟩
  · exact ⟨_, Ideal.cos_coe _⟩

/-- THE LAW THAT JOINS THE TWO SIDES: over a real column and a real encoded value, walking the 32 rows with the weights
    `[lo = r]·(1 − w) + [hi = r]·w` gives the two rows' linear mix. -/
theorem accW_eq_lerp (T : Nat → EReal) (e : EReal) (hT : ∀ r, r < 32 → ∃ x : ℝ, T r = (x : EReal)) (he : ∃ x : ℝ, e = (x : EReal)) :
    accW T (wgt e) (lo e) (hi e) 32 = lerp T e := by
  obtain ⟨x, rfl⟩ := he
  obtain ⟨o, ho⟩ := one_real
  obtain ⟨w', hw⟩ := wgt_real x
  choose! t ht using hT
  unfold lerp
  rw [hw]
  exact accW_two_rows T t w' o _ _ ht ho (lo_toNat_lt _) (hi_toNat_lt _)

/-- So on real arrays the kernel's function is the reference's. -/
theorem Gk_eq_Gr (x0 : (⟨2, ![262144, 3]⟩ : Shape).Idx → EReal) (x1 : (⟨1, ![6]⟩ : Shape).Idx → EReal)
    (x2 : (⟨4, ![36, 16, 32, 1]⟩ : Shape).Idx → EReal)
    (h0 : ∀ i, ∃ x : ℝ, x0 i = (x : EReal)) (h1 : ∀ i, ∃ x : ℝ, x1 i = (x : EReal)) (h2 : ∀ i, ∃ x : ℝ, x2 i = (x : EReal)) :
    Gk x0 x1 x2 = Gr x0 x1 x2 := by
  funext i
  unfold Gk Gr
  simp only []
  rw [accW_eq_lerp]
  · -- a column of a real table is real below row 32
    intro r hr
    unfold col
    rw [dif_pos hr]
    exact h2 _
  · -- the encoded value of a real coordinate and a real frequency is real
    unfold enc
    exact encS_real _ _ _ (h0 _) (h1 _)

end Cert.Interp

end
-- ==== Proof.Finite.lean ====
import proofs.«109660_j28028956573735_1_alg».proof.Pre_finite_inputs
import proofs.«109660_j28028956573735_1_alg».proof.Proof.Gen.Pre_finite_inputs
import Idealize.ShloMosaic.PureOps.Ideal
import Idealize.ShloMosaic.Lib.ReduceAll

noncomputable section

namespace Cert.Finite

open Idealize.ShloMosaic

/-- The pattern 0x7F800000 (sign 0, exponent all ones, significand 0) denotes +∞. -/
theorem inf_bits : Ideal.ofBits .f32 0x7F800000#32 = (⊤ : EReal) := by simp [Ideal.ofBits, Ideal.ieee]

/-- An extended real whose absolute value `max x (-x)` is strictly below +∞ is a real number:
    `x ≤ max x (-x) < ⊤` excludes `x = ⊤`, and `-x ≤ max x (-x) < ⊤` excludes `x = ⊥` (since `-⊥ = ⊤`).
    The comparison is the order's `<` read as one bit, so the bit being 1 says the inequality holds. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have hlt : max x (-x) < (⊤ : EReal) := by
    have h' : BitVec.ofBool (decide (max x (-x) < Ideal.ofBits .f32 0x7F800000#32)) = 1#1 := h
    rw [inf_bits] at h'
    by_contra hn
    simp [hn] at h'
  have hx : x ≠ ⊤ := fun e => absurd (lt_of_le_of_lt (le_max_left x (-x)) hlt) (by simp [e])
  have hx' : x ≠ ⊥ := fun e => absurd (lt_of_le_of_lt (le_max_right x (-x)) hlt) (by simp [e])
  exact ⟨x.toReal, (EReal.coe_toReal hx hx').symm⟩

/-- Under the precondition every entry of the three argument arrays is a real number. -/
theorem real_of_pre (x0 : FVec Ideal Cert.Pre_finite_inputs.S262144x3 .f32) (x1 : FVec Ideal Cert.Pre_finite_inputs.S6 .f32)
    (x2 : FVec Ideal Cert.Pre_finite_inputs.S36x16x32x1 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  -- the rank-0 shape has exactly one index: the function out of the empty set of axes
  haveI : Subsingleton Cert.Pre_finite_inputs.S_.Idx := ⟨fun a b => funext fun d => d.elim0⟩
  -- the predicate's one result bit, read at that index
  have h' := congrFun h (fun d => d.elim0)
  dsimp only [Cert.Pre_finite_inputs.fn] at h'
  -- a conjunction of bits is 1 exactly when each bit is: (all₀ ∧ all₁) ∧ all₂
  obtain ⟨h01, h2⟩ := IntOp.andi_eq_one.1 h'
  obtain ⟨h0, h1⟩ := IntOp.andi_eq_one.1 h01
  -- a reduction by "and" over every axis that came out 1 met a 1 at every element; the element is the bit of |x i| < +∞
  refine ⟨fun i => ?_, fun i => ?_, fun i => ?_⟩
  · exact real_of_abs_lt _ (Host.reduce_andi_all _ _ _ _ _ h0 i)
  · exact real_of_abs_lt _ (Host.reduce_andi_all _ _ _ _ _ h1 i)
  · exact real_of_abs_lt _ (Host.reduce_andi_all _ _ _ _ _ h2 i)

end Cert.Finite

end
-- ==== Proof.KEnc.lean ====
import proofs.«109660_j28028956573735_1_alg».proof.Proof.Gen.KernelIdeal.Skeleton
import proofs.«109660_j28028956573735_1_alg».proof.Proof.Spec
import Idealize.ShloMosaic.Lib.Pipeline.Value

noncomputable section

namespace Cert.KernelIdeal.Body

open Cert.KernelIdeal Cert.KernelIdeal.Gen Idealize.ShloMosaic Idealize.ShloMosaic.ValueIdx Cert.Interp

variable (v0 : Vec Ideal S2048x3 .f32) (v1 : Vec Ideal S1x6 .f32)

/-- The coordinates repeated along the frequency axis: entry `(r, f, d)` is coordinate `d` of row `r`. -/
private theorem coords_apply (x : Vec Ideal S2048x3 .f32) (r : Fin 2048) (f : Fin 6) (d : Fin 3) :
    broadcastTo S2048x6x3 (shapeCast S2048x1x3 x shapeCasts_S2048x3_S2048x1x3) broadcasts_S2048x1x3_S2048x6x3 (ix3 r f d)
      = x (ix2 r d) := by
  refine (broadcastTo_apply _ _ (ix3 r f d) (ix3 r (0 : Fin 1) d) (fun a => ?_)).trans ?_
  · match a with
    | ⟨0, _⟩ => rfl
    | ⟨1, _⟩ => rfl
    | ⟨2, _⟩ => rfl
  · refine shapeCast_apply _ _ _ (ix2 r d) ?_
    rw [Shape.rowMajor_val_two, Shape.rowMajor_val_three]
    show r.val * 3 + d.val = (r.val * 1 + 0) * 3 + d.val
    omega

/-- The frequencies repeated along the row and the coordinate axes: entry `(r, f, d)` is frequency `f`. -/
private theorem freqs_apply (y : Vec Ideal S1x6 .f32) (r : Fin 2048) (f : Fin 6) (d : Fin 3) :
    broadcastTo S2048x6x3 (shapeCast S1x6x1 (shapeCast S6 y shapeCasts_S1x6_S6) shapeCasts_S6_S1x6x1) broadcasts_S1x6x1_S2048x6x3 (ix3 r f d)
      = y (ix2 (0 : Fin 1) f) := by
  refine (broadcastTo_apply _ _ (ix3 r f d) (ix3 (0 : Fin 1) f (0 : Fin 1)) (fun a => ?_)).trans ?_
  · match a with
    | ⟨0, _⟩ => rfl
    | ⟨1, _⟩ => rfl
    | ⟨2, _⟩ => rfl
  · refine (shapeCast_apply _ _ _ (ix1 f) ?_).trans ?_
    · rw [Shape.rowMajor_val_one, Shape.rowMajor_val_three]
      show f.val = (0 * 6 + f.val) * 1 + 0
      omega
    · refine shapeCast_apply _ _ _ (ix2 (0 : Fin 1) f) ?_
      rw [Shape.rowMajor_val_two, Shape.rowMajor_val_one]
      show 0 * 6 + f.val = f.val
      omega

/-- The product array: entry `(r, f, d)` is coordinate `d` of row `r` times frequency `f`. -/
private theorem prod_apply (x : Vec Ideal S2048x3 .f32) (y : Vec Ideal S1x6 .f32) (r : Fin 2048) (f : Fin 6) (d : Fin 3) :
    mulf (F := Ideal) (φ := .f32) (broadcastTo S2048x6x3 (shapeCast S2048x1x3 x shapeCasts_S2048x3_S2048x1x3) broadcasts_S2048x1x3_S2048x6x3)
        (broadcastTo S2048x6x3 (shapeCast S1x6x1 (shapeCast S6 y shapeCasts_S1x6_S6) shapeCasts_S6_S1x6x1) broadcasts_S1x6x1_S2048x6x3) (ix3 r f d)
      = x (ix2 r d) * y (ix2 (0 : Fin 1) f) := by
  rw [mulf_apply, coords_apply, freqs_apply]

/-- Two `(row, frequency, coordinate)` arrays laid side by side on a new axis between frequency and coordinate, then
    flattened to 36 channels: channel `g = 6·f + 3·s + d` reads the first array when `s = 0` and the second when `s = 1`,
    at `(r, f, d)`. -/
private theorem interleave_apply {α : Type} (a b : S2048x6x3.Idx → α) (r : Fin 2048) (g : Fin 36) :
    shapeCast S2048x36
        (concatenate S2048x6x2x3 2
          [⟨S2048x6x1x3, shapeCast S2048x6x1x3 a shapeCasts_S2048x6x3_S2048x6x1x3⟩,
           ⟨S2048x6x1x3, shapeCast S2048x6x1x3 b shapeCasts_S2048x6x3_S2048x6x1x3⟩]
          concatenates_S2048x6x1x3_S2048x6x1x3_S2048x6x2x3_d2)
        shapeCasts_S2048x6x2x3_S2048x36 (ix2 r g)
      = if g.val / 3 % 2 = 0
          then a (ix3 r ⟨g.val / 6, by have := g.isLt; omega⟩ ⟨g.val % 3, Nat.mod_lt _ (by decide)⟩)
          else b (ix3 r ⟨g.val / 6, by have := g.isLt; omega⟩ ⟨g.val % 3, Nat.mod_lt _ (by decide)⟩) := by
  have hg := g.isLt
  have hf : g.val / 6 < 6 := by omega
  have hs : g.val / 3 % 2 < 2 := Nat.mod_lt _ (by decide)
  have hd : g.val % 3 < 3 := Nat.mod_lt _ (by decide)
  refine (shapeCast_apply _ _ (ix2 r g) (ix4 r ⟨g.val / 6, hf⟩ ⟨g.val / 3 % 2, hs⟩ ⟨g.val % 3, hd⟩) ?_).trans ?_
  · rw [Shape.rowMajor_val_four, Shape.rowMajor_val_two]
    show ((r.val * 6 + g.val / 6) * 2 + g.val / 3 % 2) * 3 + g.val % 3 = r.val * 36 + g.val
    omega
  · by_cases h0 : g.val / 3 % 2 = 0
    · rw [if_pos h0]
      refine (concatenate_pair_apply_left (t := S2048x6x2x3) (s₁ := S2048x6x1x3) (s₂ := S2048x6x1x3) 2 _ _ _ _ rfl (ix4 r ⟨g.val / 6, hf⟩ (0 : Fin 1) ⟨g.val % 3, hd⟩) (fun c => ?_)).trans ?_
      · match c with
        | ⟨0, _⟩ => rfl
        | ⟨1, _⟩ => rfl
        | ⟨2, _⟩ => exact h0.symm
        | ⟨3, _⟩ => rfl
      · refine shapeCast_apply _ _ _ (ix3 r ⟨g.val / 6, hf⟩ ⟨g.val % 3, hd⟩) ?_
        rw [Shape.rowMajor_val_three, Shape.rowMajor_val_four]
        show (r.val * 6 + g.val / 6) * 3 + g.val % 3 = ((r.val * 6 + g.val / 6) * 1 + 0) * 3 + g.val % 3
        omega
    · rw [if_neg h0]
      have h1 : g.val / 3 % 2 = 1 := by omega
      refine (concatenate_pair_apply_right (t := S2048x6x2x3) (s₁ := S2048x6x1x3) (s₂ := S2048x6x1x3) 2 _ _ _ _ rfl rfl (ix4 r ⟨g.val / 6, hf⟩ (0 : Fin 1) ⟨g.val % 3, hd⟩) (fun c hc => ?_) ?_).trans ?_
      · match c with
        | ⟨0, _⟩ => rfl
        | ⟨1, _⟩ => rfl
        | ⟨2, _⟩ => exact absurd rfl hc
        | ⟨3, _⟩ => rfl
      · show 0 + 1 = g.val / 3 % 2
        omega
      · refine shapeCast_apply _ _ _ (ix3 r ⟨g.val / 6, hf⟩ ⟨g.val % 3, hd⟩) ?_
        rw [Shape.rowMajor_val_three, Shape.rowMajor_val_four]
        show (r.val * 6 + g.val / 6) * 3 + g.val % 3 = ((r.val * 6 + g.val / 6) * 1 + 0) * 3 + g.val % 3
        omega

/-- The body's encoded values: channel `g = 6·f + 3·s + d` of row `r` of the block is the sine (`s = 0`) or cosine (`s = 1`)
    of the row's coordinate `d` times frequency `f`. -/
theorem pay1_apply (r : Fin 2048) (g : Fin 36) :
    k0_pay1 (F := Ideal) v0 v1 (ix2 r g)
      = encS (v0 (ix2 r ⟨g.val % 3, Nat.mod_lt _ (by decide)⟩)) (v1 (ix2 (0 : Fin 1) ⟨g.val / 6, by have := g.isLt; omega⟩)) (g.val / 3 % 2) := by
  refine (interleave_apply
    (sin (mulf (F := Ideal) (φ := .f32) (broadcastTo S2048x6x3 (shapeCast S2048x1x3 v0 shapeCasts_S2048x3_S2048x1x3) broadcasts_S2048x1x3_S2048x6x3)
        (broadcastTo S2048x6x3 (shapeCast S1x6x1 (shapeCast S6 v1 shapeCasts_S1x6_S6) shapeCasts_S6_S1x6x1) broadcasts_S1x6x1_S2048x6x3)))
    (cos (mulf (F := Ideal) (φ := .f32) (broadcastTo S2048x6x3 (shapeCast S2048x1x3 v0 shapeCasts_S2048x3_S2048x1x3) broadcasts_S2048x1x3_S2048x6x3)
        (broadcastTo S2048x6x3 (shapeCast S1x6x1 (shapeCast S6 v1 shapeCasts_S1x6_S6) shapeCasts_S6_S1x6x1) broadcasts_S1x6x1_S2048x6x3)))
    r g).trans ?_
  unfold encS
  by_cases h0 : g.val / 3 % 2 = 0
  · rw [if_pos h0, if_pos h0]
    show Ideal.sin (mulf (F := Ideal) (φ := .f32) _ _ _) = _
    rw [prod_apply]
  · rw [if_neg h0, if_neg h0]
    show Ideal.cos (mulf (F := Ideal) (φ := .f32) _ _ _) = _
    rw [prod_apply]

/-- The weight, the lower and the upper row index are the specification's functions of the encoded value, element by element. -/
theorem pay4_apply (i : S2048x36.Idx) : k0_pay4 (F := Ideal) v0 v1 i = wgt (k0_pay1 (F := Ideal) v0 v1 i) := rfl
theorem pay5_apply (i : S2048x36.Idx) : k0_pay5 (F := Ideal) v0 v1 i = lo (k0_pay1 (F := Ideal) v0 v1 i) := rfl
theorem pay6_apply (i : S2048x36.Idx) : k0_pay6 (F := Ideal) v0 v1 i = hi (k0_pay1 (F := Ideal) v0 v1 i) := rfl

end Cert.KernelIdeal.Body

end
-- ==== Proof.KIter.lean ====
/-
  The kernel body's accumulation, one table row at a time.

  The body has no loop: its 32 rows are written out one after the other.  Row `r` adds to the running sum, at
  element (point, channel, feature), the product of the row's weight at (point, channel) — `1 − w` where the lower
  row index equals `r`, plus `w` where the upper row index equals `r` — and the table's entry (channel, feature, r):
  `rowStep r`.  `rowsUpTo k` is the sum after the first `k` rows, from zero; `finish` adds the encoded value to every
  feature, swaps the channel and feature axes and flattens them into the 576 output columns; `wholeBody` is the body's
  stored value as the program spells it.
-/
import proofs.«109660_j28028956573735_1_alg».proof.Proof.Gen.KernelIdeal.Skeleton
import proofs.«109660_j28028956573735_1_alg».proof.Proof.Spec

noncomputable section

namespace Cert.KernelIdeal.Body

open Cert.KernelIdeal Cert.KernelIdeal.Gen Idealize.ShloMosaic Idealize.ShloMosaic.ValueIdx

/-- A single row of the table is a slice of it. -/
theorem slices_row (r : Nat) (h : r < 32) : S36x16x32.Slices ![0, 0, r] S36x16x1 :=
  ⟨rfl, fun a => match a with
    | ⟨0, _⟩ => by show 0 + 36 ≤ 36; omega
    | ⟨1, _⟩ => by show 0 + 16 ≤ 16; omega
    | ⟨2, _⟩ => by show r + 1 ≤ 32; omega⟩

/-- Row `r`'s contribution added to the running sum. -/
def rowStep (r : Nat) (hs : S36x16x32.Slices ![0, 0, r] S36x16x1) (w : FVec Ideal S2048x36 .f32) (i0 i1 : IVec S2048x36 32)
    (tbl : FVec Ideal S36x16x32 .f32) (acc : FVec Ideal S2048x36x16 .f32) : FVec Ideal S2048x36x16 .f32 :=
  addf acc (mulf
    (broadcastTo S2048x36x16 (shapeCast S2048x36x1 (addf
        (select (cmpi .eq i0 (broadcast S2048x36 (BitVec.ofNat 32 r)))
          (subf (broadcast S2048x36 (Scalar.ofBits (F := Ideal) .f32 0x3F800000#32)) w) (broadcast S2048x36 (Scalar.ofBits (F := Ideal) .f32 0x00000000#32)))
        (select (cmpi .eq i1 (broadcast S2048x36 (BitVec.ofNat 32 r))) w (broadcast S2048x36 (Scalar.ofBits (F := Ideal) .f32 0x00000000#32))))
      shapeCasts_S2048x36_S2048x36x1) broadcasts_S2048x36x1_S2048x36x16)
    (broadcastTo S2048x36x16 (shapeCast S1x36x16 (shapeCast S36x16 (extractStridedSlice S36x16x1 ![0, 0, r] tbl hs)
      shapeCasts_S36x16x1_S36x16) shapeCasts_S36x16_S1x36x16) broadcasts_S1x36x16_S2048x36x16))

/-- The running sum after the first `k` rows. -/
def rowsUpTo (w : FVec Ideal S2048x36 .f32) (i0 i1 : IVec S2048x36 32) (tbl : FVec Ideal S36x16x32 .f32) :
    Nat → FVec Ideal S2048x36x16 .f32
  | 0 => k0_pay8 (F := Ideal)
  | k + 1 => if h : k < 32 then rowStep k (slices_row k h) w i0 i1 tbl (rowsUpTo w i0 i1 tbl k) else rowsUpTo w i0 i1 tbl k

/-- The encoded value added to every feature; channel and feature axes swapped; flattened to 576 columns. -/
def finish (enc : FVec Ideal S2048x36 .f32) (acc : FVec Ideal S2048x36x16 .f32) : FVec Ideal S2048x576 .f32 :=
  shapeCast S2048x576 (transpose S2048x16x36 [0, 2, 1]
    (addf acc (broadcastTo S2048x36x16 (shapeCast S2048x36x1 enc shapeCasts_S2048x36_S2048x36x1) broadcasts_S2048x36x1_S2048x36x16))
    transposes_S2048x36x16_p0_2_1_S2048x16x36) shapeCasts_S2048x16x36_S2048x576

/-- The body's stored value, as the program spells it, over the encoded values `v13`, the weights `v21`, the two row
    indices `v26`, `v32` and the table `v34`. -/
def wholeBody (v13 v21 : FVec Ideal S2048x36 .f32) (v26 v32 : IVec S2048x36 32) (v34 : FVec Ideal S36x16x32 .f32) : FVec Ideal S2048x576 .f32 :=
  k0_pay47 v13 v21 v26 v32 v34 (k0_pay44 v21 v26 v32 v34 (k0_pay41 v21 v26 v32 v34 (k0_pay38 v21 v26 v32 v34 (k0_pay35 v21 v26 v32 v34 (k0_pay32 v21 v26 v32 v34 (k0_pay29 v21 v26 v32 v34 (k0_pay26 v21 v26 v32 v34 (k0_pay23 v21 v26 v32 v34 (k0_pay20 v21 v26 v32 v34 (k0_pay17 v21 v26 v32 v34 (k0_pay14 v21 v26 v32 v34 (k0_pay11 v21 v26 v32 v34 (k0_pay8 (F := Ideal)) (cmpi .eq v26 (broadcast S2048x36 0#32)) (cmpi .eq v32 (broadcast S2048x36 0#32)) (Scalar.ofBits .f32 0x3F800000#32)) (k0_pay12 v34) (k0_pay13 v21 v26 v32)) (k0_pay15 v26) (k0_pay16 v32) (Scalar.ofBits .f32 0x3F800000#32)) (k0_pay18 v34) (k0_pay19 v21 v26 v32)) (k0_pay21 v26) (k0_pay22 v32) (Scalar.ofBits .f32 0x3F800000#32)) (k0_pay24 v34) (k0_pay25 v21 v26 v32)) (k0_pay27 v26) (k0_pay28 v32) (Scalar.ofBits .f32 0x3F800000#32)) (k0_pay30 v34) (k0_pay31 v21 v26 v32)) (k0_pay33 v26) (k0_pay34 v32) (Scalar.ofBits .f32 0x3F800000#32)) (k0_pay36 v34) (k0_pay37 v21 v26 v32)) (k0_pay39 v26) (k0_pay40 v32) (Scalar.ofBits .f32 0x3F800000#32)) (k0_pay42 v34) (k0_pay43 v21 v26 v32)) (k0_pay45 v26) (k0_pay46 v32) (Scalar.ofBits .f32 0x3F800000#32)

end Cert.KernelIdeal.Body

end
-- ==== Proof.KAcc.lean ====
import proofs.«109660_j28028956573735_1_alg».proof.Proof.KIter
import Idealize.ShloMosaic.Lib.Pipeline.Value

noncomputable section

namespace Cert.KernelIdeal.Body

open Cert.KernelIdeal Cert.KernelIdeal.Gen Idealize.ShloMosaic Idealize.ShloMosaic.ValueIdx Cert.Interp

/-- A (point, channel) array given a unit feature axis and repeated along the 16 features reads, at (n, g, c), the array at (n, g):
    the repetition reads feature 0 of the unit axis, and (n, g, 0) and (n, g) have the same row-major position 36·n + g. -/
theorem repeat_features_apply {α : Type} (x : S2048x36.Idx → α) (n : Fin 2048) (g : Fin 36) (c : Fin 16) :
    broadcastTo S2048x36x16 (shapeCast S2048x36x1 x shapeCasts_S2048x36_S2048x36x1) broadcasts_S2048x36x1_S2048x36x16 (ix3 n g c)
      = x (ix2 n g) := by
  refine (broadcastTo_apply _ _ (ix3 n g c) (ix3 n g (0 : Fin 1)) (fun a => match a with
    | ⟨0, _⟩ => rfl
    | ⟨1, _⟩ => rfl
    | ⟨2, _⟩ => rfl)).trans ?_
  exact shapeCast_apply _ _ _ (ix2 n g) (by
    rw [Shape.rowMajor_val_two, Shape.rowMajor_val_three]
    show n.val * 36 + g.val = (n.val * 36 + g.val) * 1 + 0
    omega)

/-- Row `r` of the table, its unit row axis dropped, given a unit point axis and repeated along the 2048 points, reads at (n, g, c)
    the table at (g, c, r): the repetition reads point 0; (0, g, c), (g, c) and (g, c, 0) have the same row-major position 16·g + c;
    the slice shifts the row coordinate 0 by the offset `r`. -/
theorem repeat_row_apply {α : Type} (tbl : S36x16x32.Idx → α) (r : Nat) (hr : r < 32) (hs : S36x16x32.Slices ![0, 0, r] S36x16x1)
    (n : Fin 2048) (g : Fin 36) (c : Fin 16) :
    broadcastTo S2048x36x16 (shapeCast S1x36x16 (shapeCast S36x16 (extractStridedSlice S36x16x1 ![0, 0, r] tbl hs)
      shapeCasts_S36x16x1_S36x16) shapeCasts_S36x16_S1x36x16) broadcasts_S1x36x16_S2048x36x16 (ix3 n g c)
      = tbl (ix3 g c ⟨r, hr⟩) := by
  refine (broadcastTo_apply _ _ (ix3 n g c) (ix3 (0 : Fin 1) g c) (fun a => match a with
    | ⟨0, _⟩ => rfl
    | ⟨1, _⟩ => rfl
    | ⟨2, _⟩ => rfl)).trans ?_
  refine (shapeCast_apply _ _ _ (ix2 g c) (by
    rw [Shape.rowMajor_val_two, Shape.rowMajor_val_three]
    show g.val * 16 + c.val = (0 * 36 + g.val) * 16 + c.val
    omega)).trans ?_
  refine (shapeCast_apply _ _ _ (ix3 g c (0 : Fin 1)) (by
    rw [Shape.rowMajor_val_two, Shape.rowMajor_val_three]
    show (g.val * 16 + c.val) * 1 + 0 = g.val * 16 + c.val
    omega)).trans ?_
  exact extractStridedSlice_apply _ _ _ _ (ix3 g c ⟨r, hr⟩) (fun a => match a with
    | ⟨0, _⟩ => by show g.val = 0 + g.val; omega
    | ⟨1, _⟩ => by show c.val = 0 + c.val; omega
    | ⟨2, _⟩ => by show r = r + 0; omega)

/-- One row step at element (n, g, c): the running sum there, plus the row's weight at (n, g) times the table's entry (g, c, r). -/
theorem rowStep_apply (r : Nat) (hr : r < 32) (hs : S36x16x32.Slices ![0, 0, r] S36x16x1) (w : FVec Ideal S2048x36 .f32)
    (i0 i1 : IVec S2048x36 32) (tbl : FVec Ideal S36x16x32 .f32) (acc : FVec Ideal S2048x36x16 .f32)
    (n : Fin 2048) (g : Fin 36) (c : Fin 16) :
    rowStep r hs w i0 i1 tbl acc (ix3 n g c)
      = acc (ix3 n g c) + rowW (w (ix2 n g)) (i0 (ix2 n g)) (i1 (ix2 n g)) r * tbl (ix3 g c ⟨r, hr⟩) := by
  unfold rowStep
  rw [addf_apply, mulf_apply, repeat_features_apply, repeat_row_apply tbl r hr hs]
  rfl

/-- The running sum after `k` rows, at element (row `r` of the block, channel `g`, feature `c`), is the specification's running
    sum over column `(g, c)` of the table with the weight and the two row indices of `(r, g)`. -/
theorem rowsUpTo_apply (w : FVec Ideal S2048x36 .f32) (i0 i1 : IVec S2048x36 32) (tbl : FVec Ideal S36x16x32 .f32)
    (k : Nat) (hk : k ≤ 32) (r : Fin 2048) (g : Fin 36) (c : Fin 16) :
    rowsUpTo w i0 i1 tbl k (ix3 r g c)
      = accW (fun j => if h : j < 32 then tbl (ix3 g c ⟨j, h⟩) else 0) (w (ix2 r g)) (i0 (ix2 r g)) (i1 (ix2 r g)) k := by
  induction k with
  | zero => rfl
  | succ k ih =>
    have hk' : k < 32 := by omega
    have e : rowsUpTo w i0 i1 tbl (k + 1) = rowStep k (slices_row k hk') w i0 i1 tbl (rowsUpTo w i0 i1 tbl k) := by
      rw [rowsUpTo, dif_pos hk']
    rw [e, rowStep_apply k hk', ih (by omega)]
    show _ = accW _ _ _ _ k + rowW _ _ _ k * (if h : k < 32 then tbl (ix3 g c ⟨k, h⟩) else 0)
    rw [dif_pos hk']

/-- Output column `q = 36·c + g` of row `r` is the sum at (r, g, c) plus the encoded value at (r, g). -/
theorem finish_apply (enc : FVec Ideal S2048x36 .f32) (acc : FVec Ideal S2048x36x16 .f32) (r : Fin 2048) (q : Fin 576) :
    finish enc acc (ix2 r q)
      = acc (ix3 r (⟨q.val % 36, Nat.mod_lt _ (by decide)⟩ : Fin 36) (⟨q.val / 36, by have := q.isLt; omega⟩ : Fin 16))
        + enc (ix2 r (⟨q.val % 36, Nat.mod_lt _ (by decide)⟩ : Fin 36)) := by
  have hq : q.val < 576 := q.isLt
  unfold finish
  -- flattening: (r, q / 36, q % 36) of the 2048 × 16 × 36 array is at row-major position 576·r + q, where (r, q) is
  refine (shapeCast_apply _ _ (ix2 r q)
    (ix3 r (⟨q.val / 36, by omega⟩ : Fin 16) (⟨q.val % 36, Nat.mod_lt _ (by decide)⟩ : Fin 36)) (by
      rw [Shape.rowMajor_val_three, Shape.rowMajor_val_two]
      show (r.val * 16 + q.val / 36) * 36 + q.val % 36 = r.val * 576 + q.val
      omega)).trans ?_
  -- the swap of the last two axes
  refine (transpose_apply _ _ _ _
    (ix3 r (⟨q.val % 36, Nat.mod_lt _ (by decide)⟩ : Fin 36) (⟨q.val / 36, by omega⟩ : Fin 16))
    (fun b => match b with | ⟨0, _⟩ => rfl | ⟨1, _⟩ => rfl | ⟨2, _⟩ => rfl)).trans ?_
  rw [addf_apply, repeat_features_apply]

end Cert.KernelIdeal.Body

end
-- ==== Proof.KPay.lean ====
import proofs.«109660_j28028956573735_1_alg».proof.Proof.KIter

noncomputable section

namespace Cert.KernelIdeal.Body

open Cert.KernelIdeal Cert.KernelIdeal.Gen Idealize.ShloMosaic Idealize.ShloMosaic.ValueIdx

/-! The 32 rows are cut across thirteen accumulating payloads: alternately two rows (whose two comparisons with
    the row number come in as arguments, with the constant one) and three rows (whose first row's table slice and
    weight come in as arguments).  Each payload, over an arbitrary running sum, is that many row steps: both sides
    are the same nest of pointwise operations, the row number `r` written as the 32-bit numeral of `r`, and two
    proofs that a row is a slice of the table are equal as proofs of one proposition. -/

/-- The running sum before any row is the zero the body starts from. -/
theorem rowsUpTo_zero (w : FVec Ideal S2048x36 .f32) (i0 i1 : IVec S2048x36 32) (tbl : FVec Ideal S36x16x32 .f32) :
    rowsUpTo w i0 i1 tbl 0 = k0_pay8 (F := Ideal) := rfl

/-- One more row, below the 32nd, is one more row step. -/
theorem rowsUpTo_succ (w : FVec Ideal S2048x36 .f32) (i0 i1 : IVec S2048x36 32) (tbl : FVec Ideal S36x16x32 .f32)
    (k : Nat) (h : k < 32) :
    rowsUpTo w i0 i1 tbl (k + 1) = rowStep k (slices_row k h) w i0 i1 tbl (rowsUpTo w i0 i1 tbl k) := by
  simp only [rowsUpTo, dif_pos h]

/-- Rows 0 and 1. -/
theorem pay11_eq (v21 : FVec Ideal S2048x36 .f32) (v26 v32 : IVec S2048x36 32) (v34 : FVec Ideal S36x16x32 .f32)
    (acc : FVec Ideal S2048x36x16 .f32) :
    k0_pay11 (F := Ideal) v21 v26 v32 v34 acc (cmpi .eq v26 (broadcast S2048x36 0#32)) (cmpi .eq v32 (broadcast S2048x36 0#32)) (Scalar.ofBits .f32 0x3F800000#32)
      = rowStep 1 (slices_row 1 (by decide)) v21 v26 v32 v34 (rowStep 0 (slices_row 0 (by decide)) v21 v26 v32 v34 (acc)) := rfl

/-- Rows 2, 3 and 4. -/
theorem pay14_eq (v21 : FVec Ideal S2048x36 .f32) (v26 v32 : IVec S2048x36 32) (v34 : FVec Ideal S36x16x32 .f32)
    (acc : FVec Ideal S2048x36x16 .f32) :
    k0_pay14 (F := Ideal) v21 v26 v32 v34 acc (k0_pay12 v34) (k0_pay13 v21 v26 v32)
      = rowStep 4 (slices_row 4 (by decide)) v21 v26 v32 v34 (rowStep 3 (slices_row 3 (by decide)) v21 v26 v32 v34 (rowStep 2 (slices_row 2 (by decide)) v21 v26 v32 v34 (acc))) := rfl

/-- Rows 5 and 6. -/
theorem pay17_eq (v21 : FVec Ideal S2048x36 .f32) (v26 v32 : IVec S2048x36 32) (v34 : FVec Ideal S36x16x32 .f32)
    (acc : FVec Ideal S2048x36x16 .f32) :
    k0_pay17 (F := Ideal) v21 v26 v32 v34 acc (k0_pay15 v26) (k0_pay16 v32) (Scalar.ofBits .f32 0x3F800000#32)
      = rowStep 6 (slices_row 6 (by decide)) v21 v26 v32 v34 (rowStep 5 (slices_row 5 (by decide)) v21 v26 v32 v34 (acc)) := rfl

/-- Rows 7, 8 and 9. -/
theorem pay20_eq (v21 : FVec Ideal S2048x36 .f32) (v26 v32 : IVec S2048x36 32) (v34 : FVec Ideal S36x16x32 .f32)
    (acc : FVec Ideal S2048x36x16 .f32) :
    k0_pay20 (F := Ideal) v21 v26 v32 v34 acc (k0_pay18 v34) (k0_pay19 v21 v26 v32)
      = rowStep 9 (slices_row 9 (by decide)) v21 v26 v32 v34 (rowStep 8 (slices_row 8 (by decide)) v21 v26 v32 v34 (rowStep 7 (slices_row 7 (by decide)) v21 v26 v32 v34 (acc))) := rfl

/-- Rows 10 and 11. -/
theorem pay23_eq (v21 : FVec Ideal S2048x36 .f32) (v26 v32 : IVec S2048x36 32) (v34 : FVec Ideal S36x16x32 .f32)
    (acc : FVec Ideal S2048x36x16 .f32) :
    k0_pay23 (F := Ideal) v21 v26 v32 v34 acc (k0_pay21 v26) (k0_pay22 v32) (Scalar.ofBits .f32 0x3F800000#32)
      = rowStep 11 (slices_row 11 (by decide)) v21 v26 v32 v34 (rowStep 10 (slices_row 10 (by decide)) v21 v26 v32 v34 (acc)) := rfl

/-- Rows 12, 13 and 14. -/
theorem pay26_eq (v21 : FVec Ideal S2048x36 .f32) (v26 v32 : IVec S2048x36 32) (v34 : FVec Ideal S36x16x32 .f32)
    (acc : FVec Ideal S2048x36x16 .f32) :
    k0_pay26 (F := Ideal) v21 v26 v32 v34 acc (k0_pay24 v34) (k0_pay25 v21 v26 v32)
      = rowStep 14 (slices_row 14 (by decide)) v21 v26 v32 v34 (rowStep 13 (slices_row 13 (by decide)) v21 v26 v32 v34 (rowStep 12 (slices_row 12 (by decide)) v21 v26 v32 v34 (acc))) := rfl

/-- Rows 15 and 16. -/
theorem pay29_eq (v21 : FVec Ideal S2048x36 .f32) (v26 v32 : IVec S2048x36 32) (v34 : FVec Ideal S36x16x32 .f32)
    (acc : FVec Ideal S2048x36x16 .f32) :
    k0_pay29 (F := Ideal) v21 v26 v32 v34 acc (k0_pay27 v26) (k0_pay28 v32) (Scalar.ofBits .f32 0x3F800000#32)
      = rowStep 16 (slices_row 16 (by decide)) v21 v26 v32 v34 (rowStep 15 (slices_row 15 (by decide)) v21 v26 v32 v34 (acc)) := rfl

/-- Rows 17, 18 and 19. -/
theorem pay32_eq (v21 : FVec Ideal S2048x36 .f32) (v26 v32 : IVec S2048x36 32) (v34 : FVec Ideal S36x16x32 .f32)
    (acc : FVec Ideal S2048x36x16 .f32) :
    k0_pay32 (F := Ideal) v21 v26 v32 v34 acc (k0_pay30 v34) (k0_pay31 v21 v26 v32)
      = rowStep 19 (slices_row 19 (by decide)) v21 v26 v32 v34 (rowStep 18 (slices_row 18 (by decide)) v21 v26 v32 v34 (rowStep 17 (slices_row 17 (by decide)) v21 v26 v32 v34 (acc))) := rfl

/-- Rows 20 and 21. -/
theorem pay35_eq (v21 : FVec Ideal S2048x36 .f32) (v26 v32 : IVec S2048x36 32) (v34 : FVec Ideal S36x16x32 .f32)
    (acc : FVec Ideal S2048x36x16 .f32) :
    k0_pay35 (F := Ideal) v21 v26 v32 v34 acc (k0_pay33 v26) (k0_pay34 v32) (Scalar.ofBits .f32 0x3F800000#32)
      = rowStep 21 (slices_row 21 (by decide)) v21 v26 v32 v34 (rowStep 20 (slices_row 20 (by decide)) v21 v26 v32 v34 (acc)) := rfl

/-- Rows 22, 23 and 24. -/
theorem pay38_eq (v21 : FVec Ideal S2048x36 .f32) (v26 v32 : IVec S2048x36 32) (v34 : FVec Ideal S36x16x32 .f32)
    (acc : FVec Ideal S2048x36x16 .f32) :
    k0_pay38 (F := Ideal) v21 v26 v32 v34 acc (k0_pay36 v34) (k0_pay37 v21 v26 v32)
      = rowStep 24 (slices_row 24 (by decide)) v21 v26 v32 v34 (rowStep 23 (slices_row 23 (by decide)) v21 v26 v32 v34 (rowStep 22 (slices_row 22 (by decide)) v21 v26 v32 v34 (acc))) := rfl

/-- Rows 25 and 26. -/
theorem pay41_eq (v21 : FVec Ideal S2048x36 .f32) (v26 v32 : IVec S2048x36 32) (v34 : FVec Ideal S36x16x32 .f32)
    (acc : FVec Ideal S2048x36x16 .f32) :
    k0_pay41 (F := Ideal) v21 v26 v32 v34 acc (k0_pay39 v26) (k0_pay40 v32) (Scalar.ofBits .f32 0x3F800000#32)
      = rowStep 26 (slices_row 26 (by decide)) v21 v26 v32 v34 (rowStep 25 (slices_row 25 (by decide)) v21 v26 v32 v34 (acc)) := rfl

/-- Rows 27, 28 and 29. -/
theorem pay44_eq (v21 : FVec Ideal S2048x36 .f32) (v26 v32 : IVec S2048x36 32) (v34 : FVec Ideal S36x16x32 .f32)
    (acc : FVec Ideal S2048x36x16 .f32) :
    k0_pay44 (F := Ideal) v21 v26 v32 v34 acc (k0_pay42 v34) (k0_pay43 v21 v26 v32)
      = rowStep 29 (slices_row 29 (by decide)) v21 v26 v32 v34 (rowStep 28 (slices_row 28 (by decide)) v21 v26 v32 v34 (rowStep 27 (slices_row 27 (by decide)) v21 v26 v32 v34 (acc))) := rfl

/-- Rows 30 and 31, then the finish: the encoded value added, the two axes swapped, the columns flattened. -/
theorem pay47_eq (v13 : FVec Ideal S2048x36 .f32) (v21 : FVec Ideal S2048x36 .f32) (v26 v32 : IVec S2048x36 32) (v34 : FVec Ideal S36x16x32 .f32)
    (acc : FVec Ideal S2048x36x16 .f32) :
    k0_pay47 (F := Ideal) v13 v21 v26 v32 v34 acc (k0_pay45 v26) (k0_pay46 v32) (Scalar.ofBits .f32 0x3F800000#32)
      = finish v13 (rowStep 31 (slices_row 31 (by decide)) v21 v26 v32 v34 (rowStep 30 (slices_row 30 (by decide)) v21 v26 v32 v34 (acc))) := rfl

/-- The body's stored value is the 32 row steps from zero, then the finish. -/
theorem wholeBody_eq (v13 v21 : FVec Ideal S2048x36 .f32) (v26 v32 : IVec S2048x36 32) (v34 : FVec Ideal S36x16x32 .f32) :
    wholeBody v13 v21 v26 v32 v34 = finish v13 (rowsUpTo v21 v26 v32 v34 32) := by
  unfold wholeBody
  -- from the outside in, each payload becomes its two or three row steps
  rw [pay47_eq, pay44_eq, pay41_eq, pay38_eq, pay35_eq, pay32_eq, pay29_eq, pay26_eq, pay23_eq, pay20_eq, pay17_eq, pay14_eq, pay11_eq]
  -- the sum after 32 rows is the same nest of row steps, from row 31 down to row 0, over the starting zero
  rw [
    rowsUpTo_succ _ _ _ _ 31 (by decide), rowsUpTo_succ _ _ _ _ 30 (by decide), rowsUpTo_succ _ _ _ _ 29 (by decide), rowsUpTo_succ _ _ _ _ 28 (by decide),
    rowsUpTo_succ _ _ _ _ 27 (by decide), rowsUpTo_succ _ _ _ _ 26 (by decide), rowsUpTo_succ _ _ _ _ 25 (by decide), rowsUpTo_succ _ _ _ _ 24 (by decide),
    rowsUpTo_succ _ _ _ _ 23 (by decide), rowsUpTo_succ _ _ _ _ 22 (by decide), rowsUpTo_succ _ _ _ _ 21 (by decide), rowsUpTo_succ _ _ _ _ 20 (by decide),
    rowsUpTo_succ _ _ _ _ 19 (by decide), rowsUpTo_succ _ _ _ _ 18 (by decide), rowsUpTo_succ _ _ _ _ 17 (by decide), rowsUpTo_succ _ _ _ _ 16 (by decide),
    rowsUpTo_succ _ _ _ _ 15 (by decide), rowsUpTo_succ _ _ _ _ 14 (by decide), rowsUpTo_succ _ _ _ _ 13 (by decide), rowsUpTo_succ _ _ _ _ 12 (by decide),
    rowsUpTo_succ _ _ _ _ 11 (by decide), rowsUpTo_succ _ _ _ _ 10 (by decide), rowsUpTo_succ _ _ _ _ 9 (by decide), rowsUpTo_succ _ _ _ _ 8 (by decide),
    rowsUpTo_succ _ _ _ _ 7 (by decide), rowsUpTo_succ _ _ _ _ 6 (by decide), rowsUpTo_succ _ _ _ _ 5 (by decide), rowsUpTo_succ _ _ _ _ 4 (by decide),
    rowsUpTo_succ _ _ _ _ 3 (by decide), rowsUpTo_succ _ _ _ _ 2 (by decide), rowsUpTo_succ _ _ _ _ 1 (by decide), rowsUpTo_succ _ _ _ _ 0 (by decide),
    rowsUpTo_zero]

end Cert.KernelIdeal.Body

end
-- ==== Proof.KBody.lean ====
import proofs.«109660_j28028956573735_1_alg».proof.Proof.Gen.KernelIdeal.Frame
import proofs.«109660_j28028956573735_1_alg».proof.Proof.KEnc
import proofs.«109660_j28028956573735_1_alg».proof.Proof.KAcc
import proofs.«109660_j28028956573735_1_alg».proof.Proof.KPay
import Idealize.ShloMosaic.Lib.Pipeline.Value

noncomputable section

namespace Cert.KernelIdeal.Body

open Cert.KernelIdeal Cert.KernelIdeal.Gen Idealize.ShloMosaic Idealize.ShloMosaic.ValueIdx Cert.Interp

/-- Element (row `r`, column `q = 36·c + g`) of what the body leaves in the output block, as a function of the three input
    blocks: the running sum over all 32 rows of column `(g, c)` of the table block, plus the encoded value of `(r, g)`. -/
def blockVal (x0 : Vec Ideal S2048x3 .f32) (x1 : Vec Ideal S1x6 .f32) (x2 : Vec Ideal S36x16x32 .f32) (r : Fin 2048) (q : Fin 576) : EReal :=
  let g : Fin 36 := ⟨q.val % 36, Nat.mod_lt _ (by decide)⟩
  let c : Fin 16 := ⟨q.val / 36, by have := q.isLt; omega⟩
  let e := encS (x0 (ix2 r ⟨g.val % 3, Nat.mod_lt _ (by decide)⟩)) (x1 (ix2 (0 : Fin 1) ⟨g.val / 6, by have := g.isLt; omega⟩)) (g.val / 3 % 2)
  accW (fun j => if h : j < 32 then x2 (ix3 g c ⟨j, h⟩) else 0) (wgt e) (lo e) (hi e) 32 + e

theorem off2_zero : (![0, 0] : Fin 2 → Nat) = fun _ => 0 := funext fun a => by fin_cases a <;> rfl
theorem off3_zero : (![0, 0, 0] : Fin 3 → Nat) = fun _ => 0 := funext fun a => by fin_cases a <;> rfl

/-- The body loads each input block whole and stores the output block whole, so what it leaves is its one stored value
    over the blocks themselves. -/
theorem out0_3_eq (x0 : Vec Ideal S2048x3 .f32) (x1 : Vec Ideal S1x6 .f32) (x2 : Vec Ideal S36x16x32 .f32) :
    out0_3 (F := Ideal) x0 x1 x2
      = wholeBody (k0_pay1 (F := Ideal) x0 x1) (k0_pay4 (F := Ideal) x0 x1) (k0_pay5 (F := Ideal) x0 x1) (k0_pay6 (F := Ideal) x0 x1) (k0_pay7 (F := Ideal) x2) := by
  unfold out0_3
  rw [View.canon_unit_zero off2_zero]
  simp only [View.ld_unit_zero (S := S2048x3) off2_zero, View.ld_unit_zero (S := S1x6) off2_zero, View.ld_unit_zero (S := S36x16x32) off3_zero]
  rfl

/-- The table block is loaded as it is (a cast to its own shape). -/
theorem pay7_eq (x2 : Vec Ideal S36x16x32 .f32) : k0_pay7 (F := Ideal) x2 = x2 := by
  unfold k0_pay7
  exact shapeCast_self x2 _

/-- The output block after the body, element by element. -/
theorem out0_3_apply (x0 : Vec Ideal S2048x3 .f32) (x1 : Vec Ideal S1x6 .f32) (x2 : Vec Ideal S36x16x32 .f32) (r : Fin 2048) (q : Fin 576) :
    out0_3 (F := Ideal) x0 x1 x2 (ix2 r q) = blockVal x0 x1 x2 r q := by
  rw [out0_3_eq, wholeBody_eq, finish_apply, rowsUpTo_apply _ _ _ _ 32 (le_refl _), pay7_eq, pay4_apply, pay5_apply, pay6_apply, pay1_apply]
  rfl

end Cert.KernelIdeal.Body

end
-- ==== Proof.KFinal.lean ====
import proofs.«109660_j28028956573735_1_alg».proof.Proof.Gen.KernelIdeal.Value
import proofs.«109660_j28028956573735_1_alg».proof.Proof.KBody
import Idealize.ShloMosaic.Lib.Pipeline.Value
import Idealize.ShloMosaic.Lib.StableHlo.Run

noncomputable section

namespace Cert.KernelIdeal.Whole

open Cert.KernelIdeal Cert.KernelIdeal.Gen Cert.KernelIdeal.Value Cert.KernelIdeal.Body Idealize.ShloMosaic Idealize.ShloMosaic.TcCoe Idealize.SL.Sem Idealize.ShloMosaic.ValueIdx Cert.Interp
open Idealize.ShloMosaic.Pipeline (Dat)

variable (m : (ℓ : Loc nD τ sig) → Buf (Elt Ideal) ℓ) (ρ : Dev nD → PrngReg)

/-! ## The index maps, decided once over the 128 grid points

Window 0 (the points) and window 3 (the output) are at row block `t`, column block 0; windows 1 (the frequencies) and 2
(the table) are whole arrays, at block 0 on every axis. -/

theorem idx_facts3 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 3) = 0
    ∧ win0_2.index t (1 : Fin 3) = 0
    ∧ win0_2.index t (2 : Fin 3) = 0
    ∧ win0_3.index t (0 : Fin 2) = t.val
    ∧ win0_3.index t (1 : Fin 2) = 0 :=
  (by decide +kernel : ∀ t : Fin grid0.N, _)

/-- A grid point is below 128. -/
theorem point_lt (t : Fin cfg0.N) : t.val < 128 := t.isLt

/-! ## The arrays the two whole-array windows stage: reshapes of the arguments -/

open Idealize.ShloMosaic.StableHlo in
/-- The frequencies as the region finds them: the argument `[6]` re-laid as `[1, 6]`. -/
theorem V_v1 (c : Dev nD) :
    (V m c main_v1 : S1x6.Idx → EReal) = shapeCast S1x6 (m ((c : Thread nD τ).loc main_arg1)) shapeCasts_S6_S1x6 := by
  dsimp only [Gen.V, Gen.hostOps0]
  after_results
  rfl

open Idealize.ShloMosaic.StableHlo in
/-- The table as the region finds it: the argument `[36, 16, 32, 1]` re-laid as `[36, 16, 32]`. -/
theorem V_v0 (c : Dev nD) :
    (V m c main_v0 : S36x16x32.Idx → EReal) = shapeCast S36x16x32 (m ((c : Thread nD τ).loc main_arg2)) shapeCasts_S36x16x32x1_S36x16x32 := by
  dsimp only [Gen.V, Gen.hostOps0]
  after_results
  rfl

/-- Element `(0, f)` of the re-laid frequencies is frequency `f`: both sit at row-major position `f`. -/
theorem V_v1_apply (c : Dev nD) (f : Fin 6) :
    (V m c main_v1 : S1x6.Idx → EReal) (ix2 (0 : Fin 1) f) = m ((c : Thread nD τ).loc main_arg1) (ix1 f) := by
  rw [V_v1]
  refine shapeCast_apply _ _ (ix2 (0 : Fin 1) f) (ix1 f) ?_
  rw [Shape.rowMajor_val_one, Shape.rowMajor_val_two]
  show f.val = 0 * 6 + f.val
  omega

/-- Element `(g, k, j)` of the re-laid table is element `(g, k, j, 0)` of the argument: both sit at row-major position
    `(16 g + k) 32 + j`. -/
theorem V_v0_apply (c : Dev nD) (g : Fin 36) (k : Fin 16) (j : Fin 32) :
    (V m c main_v0 : S36x16x32.Idx → EReal) (ix3 g k j) = m ((c : Thread nD τ).loc main_arg2) (ix4 g k j (0 : Fin 1)) := by
  rw [V_v0]
  refine shapeCast_apply _ _ (ix3 g k j) (ix4 g k j (0 : Fin 1)) ?_
  rw [Shape.rowMajor_val_three, Shape.rowMajor_val_four]
  show ((g.val * 16 + k.val) * 32 + j.val) * 1 + 0 = (g.val * 16 + k.val) * 32 + j.val
  omega

/-! ## The input blocks at a point, element by element -/

/-- Row `r` of the points' block at `t` is row `n = 2048 t + r` of the points. -/
theorem iblk0_apply (c : Dev nD) (t : Fin cfg0.N) (r : Fin 2048) (d : Fin 3) (n : Fin 262144) (hn : n.val = t.val * 2048 + r.val) :
    (iblk m c 0 t : Vec Ideal S2048x3 .f32) (ix2 r d) = m ((c : Thread nD τ).loc main_arg0) (ix2 n d) := by
  obtain ⟨e0, e1, -⟩ := idx_facts3 t
  show V m c main_arg0 (((cfg0.win 0).blk t).view.emb (ix2 r d)) = _
  rw [V_main_arg0]
  congr 1
  funext a; apply Fin.ext
  match a with
  | ⟨0, _⟩ => show win0_0.index t (0 : Fin 2) * 2048 + 1 * r.val = n.val; omega
  | ⟨1, _⟩ => show win0_0.index t (1 : Fin 2) * 3 + 1 * d.val = d.val; omega

/-- The frequencies' block at any point is the whole re-laid array. -/
theorem iblk1_apply (c : Dev nD) (t : Fin cfg0.N) (f : Fin 6) :
    (iblk m c 1 t : Vec Ideal S1x6 .f32) (ix2 (0 : Fin 1) f) = m ((c : Thread nD τ).loc main_arg1) (ix1 f) := by
  obtain ⟨-, -, e2, e3, -⟩ := idx_facts3 t
  show V m c main_v1 (((cfg0.win 1).blk t).view.emb (ix2 (0 : Fin 1) f)) = _
  refine Eq.trans (congrArg (V m c main_v1) ?_) (V_v1_apply m c f)
  funext a; apply Fin.ext
  match a with
  | ⟨0, _⟩ => show win0_1.index t (0 : Fin 2) * 1 + 1 * 0 = 0; omega
  | ⟨1, _⟩ => show win0_1.index t (1 : Fin 2) * 6 + 1 * f.val = f.val; omega

/-- The table's block at any point is the whole re-laid array. -/
theorem iblk2_apply (c : Dev nD) (t : Fin cfg0.N) (g : Fin 36) (k : Fin 16) (j : Fin 32) :
    (iblk m c 2 t : Vec Ideal S36x16x32 .f32) (ix3 g k j) = m ((c : Thread nD τ).loc main_arg2) (ix4 g k j (0 : Fin 1)) := by
  obtain ⟨-, -, -, -, e4, e5, e6, -⟩ := idx_facts3 t
  show V m c main_v0 (((cfg0.win 2).blk t).view.emb (ix3 g k j)) = _
  refine Eq.trans (congrArg (V m c main_v0) ?_) (V_v0_apply m c g k j)
  funext a; apply Fin.ext
  match a with
  | ⟨0, _⟩ => show win0_2.index t (0 : Fin 3) * 36 + 1 * g.val = g.val; omega
  | ⟨1, _⟩ => show win0_2.index t (1 : Fin 3) * 16 + 1 * k.val = k.val; omega
  | ⟨2, _⟩ => show win0_2.index t (2 : Fin 3) * 32 + 1 * j.val = j.val; omega

/-! ## One element: the block's formula is the array's -/

/-- The block element's formula is the array element's, once each input block's element is the argument array's at
    the matching index: the point's row `r` is the array's row `n`, the frequencies and the table are the arguments
    re-laid. -/
theorem blockVal_eq_Gk (x0 : Vec Ideal S2048x3 .f32) (x1 : Vec Ideal S1x6 .f32) (x2 : Vec Ideal S36x16x32 .f32)
    (a0 : S262144x3.Idx → EReal) (a1 : S6.Idx → EReal) (a2 : S36x16x32x1.Idx → EReal)
    (n : Fin 262144) (r : Fin 2048) (q : Fin 576)
    (h0 : ∀ d : Fin 3, x0 (ix2 r d) = a0 (ix2 n d))
    (h1 : ∀ f : Fin 6, x1 (ix2 (0 : Fin 1) f) = a1 (ix1 f))
    (h2 : ∀ (g : Fin 36) (k : Fin 16) (j : Fin 32), x2 (ix3 g k j) = a2 (ix4 g k j (0 : Fin 1))) :
    blockVal x0 x1 x2 r q = Gk a0 a1 a2 (ix2 n q) := by
  unfold blockVal Gk enc col
  simp only [h0, h1, h2]

/-! ## What a point writes back -/

/-- Element `(r, q)` of the output block at `t` sits at `(2048 t + r, q)` in the output array. -/
theorem emb3_apply (t : Fin cfg0.N) (r : Fin 2048) (q : Fin 576) (n : Fin 262144) (hn : n.val = t.val * 2048 + r.val) :
    (((cfg0.win 3).blk t).view.emb (ix2 r q) : S262144x576.Idx) = ix2 n q := by
  obtain ⟨-, -, -, -, -, -, -, e7, e8⟩ := idx_facts3 t
  funext a; apply Fin.ext
  match a with
  | ⟨0, _⟩ => show win0_3.index t (0 : Fin 2) * 2048 + 1 * r.val = n.val; omega
  | ⟨1, _⟩ => show win0_3.index t (1 : Fin 2) * 576 + 1 * q.val = q.val; omega

/-- The body's result at `t`, element `j` of the block, is the kernel's function at `j`'s place in the array. -/
theorem out_at (c : Dev nD) (t : Fin cfg0.N) (j : S2048x576.Idx) :
    out0_3 (F := Ideal) (iblk m c 0 t) (iblk m c 1 t) (iblk m c 2 t) j
      = Gk (m ((c : Thread nD τ).loc main_arg0)) (m ((c : Thread nD τ).loc main_arg1)) (m ((c : Thread nD τ).loc main_arg2))
          (((cfg0.win 3).blk t).view.emb j) := by
  obtain ⟨r, q, rfl⟩ : ∃ (r : Fin 2048) (q : Fin 576), j = ix2 r q := ⟨j 0, j 1, eq_ix2 j⟩
  have hlt : t.val * 2048 + r.val < 262144 := by have := point_lt t; have := r.isLt; omega
  rw [emb3_apply t r q ⟨t.val * 2048 + r.val, hlt⟩ rfl]
  refine (out0_3_apply (iblk m c 0 t) (iblk m c 1 t) (iblk m c 2 t) r q).trans ?_
  exact blockVal_eq_Gk (iblk m c 0 t) (iblk m c 1 t) (iblk m c 2 t) _ _ _ ⟨t.val * 2048 + r.val, hlt⟩ r q
    (fun d => iblk0_apply m c t r d _ rfl) (fun f => iblk1_apply m c t f) (fun g k j => iblk2_apply m c t g k j)

/-- WHAT POINT `t` WRITES BACK is block `t` of the kernel's function of the three argument arrays. -/
theorem flushed3_eq (c : Dev nD) (t : Fin cfg0.N) :
    (dats m 0 c).flushed 3 t
      = ((cfg0.win 3).blk t).view.read (Elt Ideal)
          (Gk (m ((c : Thread nD τ).loc main_arg0)) (m ((c : Thread nD τ).loc main_arg1)) (m ((c : Thread nD τ).loc main_arg2))) := by
  rw [Value.flushed3]
  funext j
  exact out_at m c t j

/-! ## The blocks cover the output array -/

/-- An index of the output array is in point `t`'s block iff each coordinate is in the block's range on its axis. -/
theorem mem_blk3 (t : Fin cfg0.N) (i : S262144x576.Idx) :
    i ∈ ((cfg0.win 3).blk t).view.set ↔ ∀ a : Fin 2, win0_3.index t a * S2048x576.size a ≤ (i a).val ∧ (i a).val < win0_3.index t a * S2048x576.size a + S2048x576.size a := by
  show i ∈ ((View.whole main_v2).slice (win0_3.rect t)).set ↔ _
  rw [View.set_slice_whole, Rect.mem_set_unit]
  exact Iff.rfl

/-- Every index `(n, q)` of the output array is in the block of point `t = n / 2048`. -/
theorem cover3 (i : S262144x576.Idx) : ∃ t : Fin cfg0.N, (cfg0.win 3).flush t = true ∧ i ∈ ((cfg0.win 3).blk t).view.set := by
  have hi0 : (i 0).val < 262144 := (i 0).isLt
  have hi1 : (i 1).val < 576 := (i 1).isLt
  have hN : cfg0.N = 128 := N_0
  let t : Fin cfg0.N := ⟨(i 0).val / 2048, by rw [hN]; omega⟩
  have ht : t.val = (i 0).val / 2048 := rfl
  obtain ⟨-, -, -, -, -, -, -, e7, e8⟩ := idx_facts3 t
  refine ⟨t, flush0_3 t, ?_⟩
  rw [mem_blk3]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 576 ≤ (i 1).val ∧ (i 1).val < win0_3.index t (1 : Fin 2) * 576 + 576; omega

/-- THE OUTPUT ARRAY after the run is the kernel's function of the three argument arrays. -/
theorem final3 (c : Dev nD) :
    (dats m 0 c).arrAt 3 cfg0.N
      = Gk (m ((c : Thread nD τ).loc main_arg0)) (m ((c : Thread nD τ).loc main_arg1)) (m ((c : Thread nD τ).loc main_arg2)) :=
  (dats m 0 c).arrAt_eq_of_cover 3 _ (fun t _ => flushed3_eq m c t) cover3

/-- The run, with the output array named. -/
theorem run : θ_run defs (onTc (τ := τ) (main (F := Ideal))) ⟨m, fun _ => 0, ρ⟩ fun r => ∀ c : Dev nD,
      r.2.mem ((c : Thread nD τ).loc main_v2)
        = Gk (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2⟩) (run_blocks m ρ)

end Cert.KernelIdeal.Whole

end
-- ==== Proof.REnc.lean ====
import proofs.«109660_j28028956573735_1_alg».proof.Proof.Gen.ReferenceIdeal.Read
import proofs.«109660_j28028956573735_1_alg».proof.Proof.Spec
import Idealize.ShloMosaic.Lib.Pipeline.Value

noncomputable section

namespace Cert.ReferenceIdeal.Bridge

open Cert.ReferenceIdeal Cert.ReferenceIdeal.Gen Cert.ReferenceIdeal.Read Idealize.ShloMosaic Idealize.ShloMosaic.ValueIdx Cert.Interp

variable (x0 : (⟨S262144x3, .f32⟩ : BufTy).Contents (Elt Ideal)) (x1 : (⟨S6, .f32⟩ : BufTy).Contents (Elt Ideal))

/-- Reading the point array through the three broadcasts: element `(n, f, 0, d)` of the rank-4 array comes from
    coordinate `d` of point `n`. -/
theorem idx_point (n : Fin 262144) (f : Fin 6) (z : Fin 1) (d : Fin 3) :
    idx_main_v0 (idx_main_v2 (idx_main_v7 (ix4 n f z d))) = ix2 n d := by
  funext a
  match a with
  | ⟨0, _⟩ => rfl
  | ⟨1, _⟩ => rfl

/-- Reading the frequency array through the three broadcasts: element `(n, f, 0, d)` comes from frequency `f`. -/
theorem idx_freq (n : Fin 262144) (f : Fin 6) (z : Fin 1) (d : Fin 3) :
    idx_main_v1 (idx_main_v3 (idx_main_v7 (ix4 n f z d))) = ix1 f := by
  funext a
  match a with
  | ⟨0, _⟩ => rfl

/-- The sine half at `(n, f, 0, d)`: the sine of coordinate `d` of point `n` times frequency `f`. -/
theorem v7_at (n : Fin 262144) (f : Fin 6) (z : Fin 1) (d : Fin 3) :
    val_main_v7 (F := Ideal) x0 x1 (ix4 n f z d) = Ideal.sin (x0 (ix2 n d) * x1 (ix1 f)) := by
  rw [val_main_v7_apply, val_main_v5_apply, val_main_v4_apply, val_main_v2_apply, val_main_v3_apply,
    val_main_v0_apply, val_main_v1_apply, idx_point, idx_freq]
  rfl

/-- The cosine half at `(n, f, 0, d)`: the cosine of coordinate `d` of point `n` times frequency `f`. -/
theorem v8_at (n : Fin 262144) (f : Fin 6) (z : Fin 1) (d : Fin 3) :
    val_main_v8 (F := Ideal) x0 x1 (ix4 n f z d) = Ideal.cos (x0 (ix2 n d) * x1 (ix1 f)) := by
  rw [val_main_v8_apply, val_main_v6_apply, val_main_v4_apply, val_main_v2_apply, val_main_v3_apply,
    val_main_v0_apply, val_main_v1_apply]
  show Ideal.cos (x0 (idx_main_v0 (idx_main_v2 (idx_main_v7 (ix4 n f z d)))) * x1 (idx_main_v1 (idx_main_v3 (idx_main_v7 (ix4 n f z d))))) = _
  rw [idx_point, idx_freq]

/-- The reference's encoded values, channel-major: entry `(g, n)` is the encoded value of channel `g` of point `n`. -/
theorem v11_apply (g : Fin 36) (n : Fin 262144) : val_main_v11 (F := Ideal) x0 x1 (ix2 g n) = enc x0 x1 n g := by
  have hg : g.val < 36 := g.isLt
  have hn : n.val < 262144 := n.isLt
  rw [val_main_v11_apply, val_main_v10_apply]
  unfold val_main_v9 enc encS
  by_cases hs : g.val / 3 % 2 = 0
  · -- the sine half: the joined axis' coordinate is 0
    rw [if_pos hs]
    rw [concatenate_pair_apply_left (2 : Fin 4) (val_main_v7 (F := Ideal) x0 x1) (val_main_v8 (F := Ideal) x0 x1)
      concatenates_S262144x6x1x3_S262144x6x1x3_S262144x6x2x3_d2 (idx_main_v10 (idx_main_v11 (ix2 g n))) rfl
      (ix4 n ⟨g.val / 6, by omega⟩ 0 ⟨g.val % 3, Nat.mod_lt _ (by decide)⟩)
      (fun b => match b with
        | ⟨0, _⟩ => by show n.val = (n.val * 36 + g.val) / 36; omega
        | ⟨1, _⟩ => by show g.val / 6 = (n.val * 36 + g.val) / 6 % 6; omega
        | ⟨2, _⟩ => by show 0 = (n.val * 36 + g.val) / 3 % 2; omega
        | ⟨3, _⟩ => by show g.val % 3 = (n.val * 36 + g.val) % 3; omega)]
    exact v7_at x0 x1 _ _ _ _
  · -- the cosine half: the joined axis' coordinate is 1
    rw [if_neg hs]
    rw [concatenate_pair_apply_right (2 : Fin 4) (val_main_v7 (F := Ideal) x0 x1) (val_main_v8 (F := Ideal) x0 x1)
      concatenates_S262144x6x1x3_S262144x6x1x3_S262144x6x2x3_d2 (idx_main_v10 (idx_main_v11 (ix2 g n))) rfl rfl
      (ix4 n ⟨g.val / 6, by omega⟩ 0 ⟨g.val % 3, Nat.mod_lt _ (by decide)⟩)
      (fun b => match b with
        | ⟨0, _⟩ => fun _ => by show n.val = (n.val * 36 + g.val) / 36; omega
        | ⟨1, _⟩ => fun _ => by show g.val / 6 = (n.val * 36 + g.val) / 6 % 6; omega
        | ⟨2, _⟩ => fun h => absurd rfl h
        | ⟨3, _⟩ => fun _ => by show g.val % 3 = (n.val * 36 + g.val) % 3; omega)
      (by show 0 + 1 = (n.val * 36 + g.val) / 3 % 2; omega)]
    exact v8_at x0 x1 _ _ _ _

/-- The weight, the lower and the upper row index are the specification's functions of the encoded value, element by element. -/
theorem v21_apply (i : S36x262144.Idx) : val_main_v21 (F := Ideal) x0 x1 i = wgt (val_main_v11 (F := Ideal) x0 x1 i) := by
  rw [val_main_v21_apply, val_main_v20_apply, val_main_v19_apply, val_main_v17_apply, val_main_v15_apply,
    val_main_v14_apply, val_main_v16_apply, val_main_v18_apply, val_main_cst_apply, val_main_cst_0_apply, val_main_cst_1_apply]
  rfl

theorem v23_apply (i : S36x262144.Idx) : val_main_v23 (F := Ideal) x0 x1 i = lo (val_main_v11 (F := Ideal) x0 x1 i) := by
  rw [val_main_v23_apply, val_main_call0_v2_apply, val_main_v22_apply, val_main_call0_v4_apply, val_main_call0_v1_apply,
    val_main_call0_v3_apply, val_main_call0_v0_apply, val_main_c_apply, val_main_c_2_apply,
    val_main_v20_apply, val_main_v19_apply, val_main_v17_apply, val_main_v15_apply,
    val_main_v14_apply, val_main_v16_apply, val_main_v18_apply, val_main_cst_apply, val_main_cst_0_apply, val_main_cst_1_apply]
  rfl

theorem v26_apply (i : S36x262144.Idx) : val_main_v26 (F := Ideal) x0 x1 i = hi (val_main_v11 (F := Ideal) x0 x1 i) := by
  rw [val_main_v26_apply, val_main_call1_v2_apply, val_main_v25_apply, val_main_call1_v4_apply, val_main_call1_v1_apply,
    val_main_call1_v3_apply, val_main_call1_v0_apply, val_main_c_4_apply, val_main_c_5_apply,
    val_main_v24_apply, val_main_c_3_apply, v23_apply]
  rfl

end Cert.ReferenceIdeal.Bridge

end
-- ==== Proof.RTail.lean ====
import proofs.«109660_j28028956573735_1_alg».proof.Proof.REnc
import proofs.«109660_j28028956573735_1_alg».proof.Proof.Interp

noncomputable section

namespace Cert.ReferenceIdeal.Bridge

open Cert.ReferenceIdeal Cert.ReferenceIdeal.Gen Cert.ReferenceIdeal.Read Idealize.ShloMosaic Idealize.ShloMosaic.ValueIdx Cert.Interp

variable (x0 : (⟨S262144x3, .f32⟩ : BufTy).Contents (Elt Ideal)) (x1 : (⟨S6, .f32⟩ : BufTy).Contents (Elt Ideal))
  (x2 : (⟨S36x16x32x1, .f32⟩ : BufTy).Contents (Elt Ideal))

/-- The two gathers' dimension numbers: operand axis 0 is a batching axis paired with start-index axis 0, operand axis 1
    is the collapsed axis the one-component start index addresses, operand axis 2 is the offset axis the result's last
    axis walks. -/
abbrev GD : GatherDims S36x32x16 S36x262144x1 S36x262144x16 := gather_S36x32x16_S36x262144x1_S36x262144x16_2_1_0_0_1_2_1116

/-- THE GATHER READ AT AN INDEX, for any operand and any array of start indices: result element `(g, n, c)` is the
    operand's element `(g, r, c)`, where the row `r` is the start index `idx (g, n, 0)` read as a signed integer and
    clamped into `[0, 31]`. Per operand axis the operand index is start + batch coordinate + offset coordinate:
    on axis 0 only the batch coordinate `g` is non-zero, on axis 1 only the clamped start, on axis 2 only the offset `c`. -/
theorem gather_apply {α : Type} {w : Nat} (x : S36x32x16.Idx → α) (idx : IVec S36x262144x1 w)
    (g : Fin 36) (n : Fin 262144) (c : Fin 16) :
    Host.gather GD x idx (ix3 g n c)
      = x (ix3 g ⟨min (idx (ix3 g n 0)).toInt.toNat 31, by omega⟩ c) := by
  unfold Host.gather
  congr 1
  funext a
  refine Fin.ext ?_
  show GD.start (ix3 g n c) idx a + GD.batchCoord (ix3 g n c) a + GD.offCoord (ix3 g n c) a = _
  match a with
  | ⟨0, _⟩ =>
    have hb : (⟨0, by decide⟩ : Fin S36x32x16.rank) ∈ GD.operandBatchingDims := List.mem_singleton.mpr rfl
    rw [GatherDims.start_batching _ _ _ _ hb,
      GatherDims.offCoord_eq_zero _ _ _ (fun h => ((GatherDims.mem_sKept _ _).mp h).2 hb)]
    unfold GatherDims.batchCoord
    rw [dif_pos hb, Nat.zero_add, Nat.add_zero]
    rfl
  | ⟨1, _⟩ =>
    have hm : (⟨1, by decide⟩ : Fin S36x32x16.rank) ∈ GD.startIndexMap := List.mem_singleton.mpr rfl
    have hc : (⟨1, by decide⟩ : Fin S36x32x16.rank) ∈ GD.collapsedSliceDims := List.mem_singleton.mpr rfl
    have hnb : (⟨1, by decide⟩ : Fin S36x32x16.rank) ∉ GD.operandBatchingDims := by decide
    rw [GatherDims.batchCoord_eq_zero _ _ _ hnb,
      GatherDims.offCoord_eq_zero _ _ _ (fun h => ((GatherDims.mem_sKept _ _).mp h).1 hc), Nat.add_zero]
    unfold GatherDims.start
    rw [dif_pos hm]
    have hsi : GD.siIdx (ix3 g n c) ⟨List.idxOf (⟨1, by decide⟩ : Fin S36x32x16.rank) GD.startIndexMap,
        List.idxOf_lt_length_iff.2 hm⟩ = ix3 g n 0 := by
      funext b; refine Fin.ext ?_
      match b with
      | ⟨0, _⟩ => rfl
      | ⟨1, _⟩ => rfl
      | ⟨2, _⟩ => rfl
    rw [hsi]
    rfl
  | ⟨2, _⟩ =>
    have hk : (⟨2, by decide⟩ : Fin S36x32x16.rank) ∈ GD.sKept := by decide
    have hnb : (⟨2, by decide⟩ : Fin S36x32x16.rank) ∉ GD.operandBatchingDims := by decide
    have hnm : (⟨2, by decide⟩ : Fin S36x32x16.rank) ∉ GD.startIndexMap := by decide
    rw [GatherDims.batchCoord_eq_zero _ _ _ hnb]
    unfold GatherDims.start GatherDims.offCoord
    rw [dif_neg hnm, dif_pos hk, Nat.add_zero, Nat.zero_add]
    rfl

/-- The gathers' operand, the table with its row and feature axes exchanged: entry `(g, r, c)` is the table's `(g, c, r, 0)`
    (the row-major position `(g·16 + c)·32 + r` split back into its coordinates). -/
theorem v13_at (g : Fin 36) (r : Fin 32) (c : Fin 16) :
    val_main_v13 (F := Ideal) x2 (ix3 g r c) = x2 (ix4 g c r 0) := by
  rw [val_main_v13_apply, val_main_v12_apply]
  congr 1
  funext a
  refine Fin.ext ?_
  have hg := g.isLt; have hr := r.isLt; have hc := c.isLt
  match a with
  | ⟨0, _⟩ => show ((g.val * 16 + c.val) * 32 + r.val) / 512 = g.val; omega
  | ⟨1, _⟩ => show ((g.val * 16 + c.val) * 32 + r.val) / 32 % 16 = c.val; omega
  | ⟨2, _⟩ => show ((g.val * 16 + c.val) * 32 + r.val) / 1 % 32 = r.val; omega
  | ⟨3, _⟩ => rfl

/-- A gather of the table at start indices whose entry `(g, n, 0)` is a word `b` that is a row number (below 32, and the
    same number read signed) reads column `(g, c)` of the table at row `b`: the clamp does nothing. -/
theorem gather_col (idx : IVec S36x262144x1 32) (g : Fin 36) (n : Fin 262144) (c : Fin 16) (b : BitVec 32)
    (hb : idx (ix3 g n 0) = b) (hlt : b.toNat < 32) (hint : b.toInt = (b.toNat : Int)) :
    Host.gather GD (val_main_v13 (F := Ideal) x2) idx (ix3 g n c) = col x2 g c b.toNat := by
  subst hb
  rw [gather_apply]
  have hr : min (idx (ix3 g n 0)).toInt.toNat 31 = (idx (ix3 g n 0)).toNat := by rw [hint]; omega
  have hfin : (⟨min (idx (ix3 g n 0)).toInt.toNat 31, by omega⟩ : Fin 32) = ⟨(idx (ix3 g n 0)).toNat, hlt⟩ := Fin.ext hr
  rw [hfin, v13_at]
  unfold col
  rw [dif_pos hlt]

/-- The first gather reads, for channel `g`, point `n`, feature `c`, the table's entry at the lower row. -/
theorem v33_apply (g : Fin 36) (n : Fin 262144) (c : Fin 16) :
    val_main_v33 (F := Ideal) x0 x1 x2 (ix3 g n c) = col x2 g c (lo (enc x0 x1 n g)).toNat := by
  have hidx : val_main_v32 (F := Ideal) x0 x1 (ix3 g n 0) = lo (enc x0 x1 n g) := by
    have hi : idx_main_v32 (ix3 g n (0 : Fin 1)) = ix2 g n := by
      funext a; match a with | ⟨0, _⟩ => rfl | ⟨1, _⟩ => rfl
    rw [val_main_v32_apply, hi, val_main_v31_apply, val_main_v28_apply, val_main_v27_apply, val_main_c_6_apply,
      v23_apply, v11_apply, lo_not_neg, select_zero]
  unfold val_main_v33
  exact gather_col x2 _ g n c _ hidx (lo_toNat_lt _) (lo_toInt _)

/-- The second gather reads the entry at the upper row. -/
theorem v40_apply (g : Fin 36) (n : Fin 262144) (c : Fin 16) :
    val_main_v40 (F := Ideal) x0 x1 x2 (ix3 g n c) = col x2 g c (hi (enc x0 x1 n g)).toNat := by
  have hidx : val_main_v39 (F := Ideal) x0 x1 (ix3 g n 0) = hi (enc x0 x1 n g) := by
    have hi : idx_main_v39 (ix3 g n (0 : Fin 1)) = ix2 g n := by
      funext a; match a with | ⟨0, _⟩ => rfl | ⟨1, _⟩ => rfl
    rw [val_main_v39_apply, hi, val_main_v38_apply, val_main_v35_apply, val_main_v34_apply, val_main_c_8_apply,
      v26_apply, v11_apply, hi_not_neg, select_zero]
  unfold val_main_v40
  exact gather_col x2 _ g n c _ hidx (hi_toNat_lt _) (hi_toInt _)

/-- THE REFERENCE'S RESULT is the specification's function of the three argument arrays. Output element `(n, q)` has
    row-major position `j = n·576 + q`; its five coordinates in the shape 262144×16×6×3×2 are
    `(n, q/36, q%36/6, q%6/2, q%2)`, so the feature is `c = q/36` and the channel is
    `((q%36/6)·3 + q%6/2)·2 + q%2 = q%36`. -/
theorem v56_eq : val_main_v56 (F := Ideal) x0 x1 x2 = Gr x0 x1 x2 := by
  funext i
  obtain ⟨n, q, rfl⟩ : ∃ (n : Fin 262144) (q : Fin 576), i = ix2 n q := ⟨i 0, i 1, eq_ix2 i⟩
  have hn := n.isLt
  have hq := q.isLt
  let g : Fin 36 := ⟨q.val % 36, Nat.mod_lt _ (by decide)⟩
  let cc : Fin 16 := ⟨q.val / 36, by omega⟩
  -- the five coordinates of position n·576 + q, and the channel they spell
  have e0 : (n.val * 576 + q.val) / 576 = n.val := by omega
  have e1 : (n.val * 576 + q.val) / 36 % 16 = q.val / 36 := by omega
  have e2 : (n.val * 576 + q.val) / 6 % 6 = q.val % 36 / 6 := by omega
  have e3 : (n.val * 576 + q.val) / 2 % 3 = q.val % 6 / 2 := by omega
  have e4 : (n.val * 576 + q.val) % 2 = q.val % 2 := by omega
  have e5 : ((q.val % 36 / 6) * 3 + q.val % 6 / 2) * 2 + q.val % 2 = q.val % 36 := by omega
  have h1 : idx_main_v50 (idx_main_v51 (idx_main_v55 (idx_main_v56 (ix2 n q)))) = ix3 g n cc := by
    funext a
    refine Fin.ext ?_
    match a with
    | ⟨0, _⟩ =>
      show ((((((n.val * 576 + q.val) / 6 % 6) * 3 + (n.val * 576 + q.val) / 2 % 3) * 2 + (n.val * 576 + q.val) % 2) * 16
        + (n.val * 576 + q.val) / 36 % 16) * 262144 + (n.val * 576 + q.val) / 576) / 4194304 = q.val % 36
      rw [e0, e1, e2, e3, e4, e5]; clear e0 e1 e2 e3 e4 e5; omega
    | ⟨1, _⟩ =>
      show ((((((n.val * 576 + q.val) / 6 % 6) * 3 + (n.val * 576 + q.val) / 2 % 3) * 2 + (n.val * 576 + q.val) % 2) * 16
        + (n.val * 576 + q.val) / 36 % 16) * 262144 + (n.val * 576 + q.val) / 576) % 262144 = n.val
      rw [e0, e1, e2, e3, e4, e5]; clear e0 e1 e2 e3 e4 e5; omega
    | ⟨2, _⟩ =>
      show ((((((n.val * 576 + q.val) / 6 % 6) * 3 + (n.val * 576 + q.val) / 2 % 3) * 2 + (n.val * 576 + q.val) % 2) * 16
        + (n.val * 576 + q.val) / 36 % 16) * 262144 + (n.val * 576 + q.val) / 576) / 262144 % 16 = q.val / 36
      rw [e0, e1, e2, e3, e4, e5]; clear e0 e1 e2 e3 e4 e5; omega
  have h2 : idx_main_v52 (idx_main_v53 (idx_main_v55 (idx_main_v56 (ix2 n q)))) = ix2 g n := by
    funext a
    refine Fin.ext ?_
    match a with
    | ⟨0, _⟩ =>
      show ((((((n.val * 576 + q.val) / 6 % 6) * 3 + (n.val * 576 + q.val) / 2 % 3) * 2 + (n.val * 576 + q.val) % 2) * 1
        + 0) * 262144 + (n.val * 576 + q.val) / 576) / 262144 = q.val % 36
      rw [e0, e2, e3, e4, e5]; clear e0 e1 e2 e3 e4 e5; omega
    | ⟨1, _⟩ =>
      show ((((((n.val * 576 + q.val) / 6 % 6) * 3 + (n.val * 576 + q.val) / 2 % 3) * 2 + (n.val * 576 + q.val) % 2) * 1
        + 0) * 262144 + (n.val * 576 + q.val) / 576) % 262144 = n.val
      rw [e0, e2, e3, e4, e5]; clear e0 e1 e2 e3 e4 e5; omega
  have h3 : idx_main_v43 (idx_main_v44 (ix3 g n cc)) = ix2 g n := by
    funext a; match a with | ⟨0, _⟩ => rfl | ⟨1, _⟩ => rfl
  have h4 : idx_main_v46 (idx_main_v47 (ix3 g n cc)) = ix2 g n := by
    funext a; match a with | ⟨0, _⟩ => rfl | ⟨1, _⟩ => rfl
  rw [val_main_v56_apply, val_main_v55_apply, val_main_v54_apply, val_main_v51_apply, val_main_v50_apply,
    val_main_v49_apply, val_main_v45_apply, val_main_v48_apply, val_main_v53_apply, val_main_v52_apply, h1, h2,
    v33_apply, v40_apply, val_main_v44_apply, val_main_v43_apply, val_main_v42_apply, val_main_v47_apply,
    val_main_v46_apply, h3, h4, v21_apply, val_main_v41_apply, val_main_cst_10_apply, v11_apply]
  rfl

end Cert.ReferenceIdeal.Bridge

end
-- ==== Proof.lean ====
/-
  A positional encoding followed by a bilinear table lookup: for each of 262144 points and each of 36 encoded channels
  (6 frequencies × sine/cosine × 3 coordinates) the encoded value picks a position on a 32-row table axis; the two
  neighbouring rows of every one of the 16 feature columns are mixed linearly and the encoded value is added.
  Element (n, 36·c + g) of the result belongs to point n, feature c, channel g.

  The kernel has no gather: over a block of 2048 points it walks the 32 rows and adds row r with the weight
  [lower = r]·(1 − w) + [upper = r]·w.  The reference gathers the two rows.  On real inputs (the precondition) the two are
  one function: every row other than the two chosen ones contributes a zero, and where the two rows coincide (the upper one
  clamped at the last row) the weights (1 − w) and w are added before the product instead of after it, which is
  distributivity over the reals.

  Modules: Spec (the mathematics, one element at a time), Interp (the law above), Finite (the precondition gives real
  entries), KEnc / KIter / KAcc / KPay / KBody (the kernel body's stored value at an element), KFinal (the output array from
  its blocks), REnc / RTail (the reference's stages read at an index).
-/
import proofs.«109660_j28028956573735_1_alg».proof.Defs
import proofs.«109660_j28028956573735_1_alg».proof.Proof.Gen.Kernel
import proofs.«109660_j28028956573735_1_alg».proof.Proof.Gen.Kernel.Skeleton
import proofs.«109660_j28028956573735_1_alg».proof.Proof.Gen.Kernel.Launch
import proofs.«109660_j28028956573735_1_alg».proof.Proof.Gen.Kernel.Points
import proofs.«109660_j28028956573735_1_alg».proof.Proof.Gen.Kernel.Frame
import proofs.«109660_j28028956573735_1_alg».proof.Proof.Gen.KernelIdeal
import proofs.«109660_j28028956573735_1_alg».proof.Proof.Gen.KernelIdeal.Skeleton
import proofs.«109660_j28028956573735_1_alg».proof.Proof.Gen.KernelIdeal.Launch
import proofs.«109660_j28028956573735_1_alg».proof.Proof.Gen.KernelIdeal.Points
import proofs.«109660_j28028956573735_1_alg».proof.Proof.Gen.KernelIdeal.Frame
import proofs.«109660_j28028956573735_1_alg».proof.Proof.Gen.ReferenceIdeal
import proofs.«109660_j28028956573735_1_alg».proof.Proof.Gen.Pre_finite_inputs
import proofs.«109660_j28028956573735_1_alg».proof.Proof.Gen.KernelIdeal.Value
import proofs.«109660_j28028956573735_1_alg».proof.Proof.Gen.ReferenceIdeal.Run
import proofs.«109660_j28028956573735_1_alg».proof.Proof.Gen.ReferenceIdeal.Read
import proofs.«109660_j28028956573735_1_alg».proof.Proof.Interp
import proofs.«109660_j28028956573735_1_alg».proof.Proof.Finite
import proofs.«109660_j28028956573735_1_alg».proof.Proof.KFinal
import proofs.«109660_j28028956573735_1_alg».proof.Proof.RTail
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two programs, from memories that agree on the three arrays, end with the same result: the kernel's array is the
    row walk `Gk` of its arguments, the reference's the two-row mix `Gr` of the same arguments, and on real arrays the two
    functions coincide. -/
theorem algebraic : Cert.algebraic_KernelIdeal_ReferenceIdeal := by
  intro m ρ m' ρ' hpre hagree
  refine ⟨fun c => Cert.Interp.Gk (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, Cert.ReferenceIdeal.Bridge.v56_eq, (hagree c).1, (hagree c).2.1, (hagree c).2.2]
  obtain ⟨h0, h1, h2⟩ := Cert.Finite.real_of_pre _ _ _ (hpre c)
  exact (Cert.Interp.Gk_eq_Gr _ _ _ h0 h1 h2).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
